-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S128x1024 .f32) (main_arg3 : FVec F S50257x1024 .f32) (main_arg4 : FVec F S128x2048 .f32) (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S128x2048 .f32 := Host.absf main_arg4
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x128 : Shape := ⟨2, ![2048, 128]⟩
abbrev S1x128 : Shape := ⟨2, ![1, 128]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩

abbrev nBuf : Space → Nat
  | .hbm => 111
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x50257, .f32⟩
  | .hbm, ⟨94, _⟩ => ⟨S1x50257, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1x1, .f32⟩
  | .hbm, ⟨101, _⟩ => ⟨S1x50257, .f32⟩
  | .hbm, ⟨102, _⟩ => ⟨S1x50257, .f32⟩
  | .hbm, ⟨103, _⟩ => ⟨S1x50257, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S1x1, .f32⟩
  | .hbm, ⟨108, _⟩ => ⟨S1x50257, .f32⟩
  | .hbm, ⟨109, _⟩ => ⟨S1x50257, .f32⟩
  | .hbm, ⟨110, _⟩ => ⟨S1x1x1024, .f32⟩
  | .local _ .vmem, ⟨0, _⟩ => ⟨S1x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_call1_cst_0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_cst_1 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_v69 : Ref sig .tc := ⟨.hbm, 109, rfl⟩
abbrev main_v70 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S128x2048_S2048x128_1_0 : S128x2048.Transposes [1, 0] S2048x128
  bcast_S128_S1x128_1 : S128.BroadcastsInDim S1x128 (![1] : Fin 1 → Fin S1x128.rank)
  reducesTo_S1x128_S1_d1 : S1x128.ReducesTo [1] S1
  h_S_ : 0 < S_.numel
  bcast_S1x1_S1x128_0_1 : S1x1.BroadcastsInDim S1x128 (![0, 1] : Fin 2 → Fin S1x128.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x128_S1x128_1_0_0_1_n_n_wf : DotDims.WF S1x2048 S2048x128 S1x128 [1] [0] [0] [1] [] []
  dot_S1x128_S128x1024_S1x1024_1_0_0_1_n_n_wf : DotDims.WF S1x128 S128x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S50257x1024.size a
  hwx0_1 : ∀ i : grid0.Coords, EltTy.bits .f32 = 32 ∨ (Rect.unit (s := S50257x1024) (fun a => cc0_transform_1 i a * S2048x1024.size a) (fun a => (Pipeline.Clip.of (cc0_transform_1 i a) (S2048x1024.size a) (S50257x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S50257x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x50257.size a
  hwx0_2 : ∀ i : grid0.Coords, EltTy.bits .f32 = 32 ∨ (Rect.unit (s := S1x50257) (fun a => cc0_transform_2 i a * S1x2048.size a) (fun a => (Pipeline.Clip.of (cc0_transform_2 i a) (S1x2048.size a) (S1x50257.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x50257.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x50257.size a
  hwx0_3 : ∀ i : grid0.Coords, EltTy.bits .f32 = 32 ∨ (Rect.unit (s := S1x50257) (fun a => cc0_transform_3 i a * S1x2048.size a) (fun a => (Pipeline.Clip.of (cc0_transform_3 i a) (S1x2048.size a) (S1x50257.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x50257.size a)).extent (S1x2048.size a)) fun a => (Nat.zero_add _).trans_le (Pipeline.Clip.extent_le (Pipeline.Clip.ok_of (hstart0_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v66) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v67) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v68) S1x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x128 : Shape := ⟨2, ![2048, 128]⟩
abbrev S1x128 : Shape := ⟨2, ![1, 128]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S128x2048_S2048x128_1_0 : S128x2048.Transposes [1, 0] S2048x128
  bcast_S128_S1x128_1 : S128.BroadcastsInDim S1x128 (![1] : Fin 1 → Fin S1x128.rank)
  reducesTo_S1x128_S1_d1 : S1x128.ReducesTo [1] S1
  h_S_ : 0 < S_.numel
  bcast_S1x1_S1x128_0_1 : S1x1.BroadcastsInDim S1x128 (![0, 1] : Fin 2 → Fin S1x128.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x128_S1x128_1_0_0_1_n_n_wf : DotDims.WF S1x2048 S2048x128 S1x128 [1] [0] [0] [1] [] []
  dot_S1x128_S128x1024_S1x1024_1_0_0_1_n_n_wf : DotDims.WF S1x128 S128x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefSide.lean ====
/-
  The reference program's run, read at its three results.

  The reference's 99 host operations are cut after the 79th, which writes the new hidden row.  The 20 that follow
  compute `logits = h · Wᵀ + b` with one matrix product against the transposed projection matrix, take the row's
  log-softmax (`s = logits − max(logits)`, result `s − log Σ exp s`), and put a unit axis in front of the hidden row.
  They are read from ANY buffer contents, so the hidden row and the attention weights the first 79 operations leave
  are never opened here.  Over the extended reals entry `j` of the logits is `Σₖ h[k] · W[j, k] + b[j]`.
-/
import proofs.«119405_j36335423324794_1_alg».proof.Proof.RefRun
import Idealize.ShloMosaic.Lib.Pipeline.Frame
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.PValue
open Idealize.ShloMosaic Idealize.ShloMosaic.TcCoe Idealize.SL.Sem Idealize.ShloMosaic.StableHlo

variable {F : FTy → Type} [FloatOps F]

/-- The whole line run from `W` is the second part run from what the first part leaves. -/
theorem after_ops (W : Valuation τ sig (Elt F)) : after (ops (F := F)) W = after opsTail (after opsPre W) := by
  rw [ops_split, StableHlo.after_append]

/-- Contents carried to a typed reference's buffer and back are unchanged. -/
theorem ofBuf_toBuf_id {sg : RefSig} {T : BufTy} {Val : EltTy → Type} (x : StableHlo.TRef sg T) (v : T.Contents Val) :
    x.ofBuf (x.toBuf v) = v := by
  rcases x with ⟨r, rfl, h2, h3⟩; rfl

/-- The row less its maximum (the maximum taken against `-∞`, as the program spells it). -/
def shiftRow (x : FVec F S1x50257 .f32) : FVec F S1x50257 .f32 :=
  subf x (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x50257_S1_d1 h_S_))))

/-- The row's log-softmax: the shifted row less the logarithm of the sum of its exponentials. -/
def logSoftmaxRow (x : FVec F S1x50257 .f32) : FVec F S1x50257 .f32 :=
  subf (shiftRow x) (broadcastInDim S1x50257 ![0, 1] bcast_S1x1_S1x50257_0_1 (Host.log (broadcastInDim S1x1 ![0] bcast_S1_S1x1_0
    (Host.reduceAdd (Host.exp (shiftRow x)) (constant (F := F) S_ .f32 0x00000000#32) reducesTo_S1x50257_S1_d1 h_S_))))

/-- The reference's logits: the hidden row times the transposed projection matrix, plus the bias along the row. -/
def refLogits (h : FVec F S1x1024 .f32) (W : FVec F S50257x1024 .f32) (b : FVec F S50257 .f32) : FVec F S1x50257 .f32 :=
  addf (Host.dotGeneral dot_S1x1024_S1024x50257_S1x50257_1_0_0_1_n_n none h (transpose S1024x50257 [1, 0] W transposes_S50257x1024_S1024x50257_1_0))
    (broadcastInDim S1x50257 ![1] bcast_S50257_S1x50257_1 b)

/-! ## The last twenty operations, from any contents -/

/-- They leave in the first result's buffer the log-softmax of the logits of the hidden row's buffer, -/
theorem tail71_of (W : Valuation τ sig (Elt F)) :
    after (opsTail (F := F)) W (Proc.devRef .tc main_v71)
      = logSoftmaxRow (refLogits (W (Proc.devRef .tc main_v66)) (W (Proc.devRef .tc main_arg12)) (W (Proc.devRef .tc main_arg13))) := by
  simp only [opsTail]
  after_results_simp
  simp only [ofBuf_toBuf_id]
  rfl

/-- and in the second result's buffer the hidden row with a unit axis in front. -/
theorem tail72_of (W : Valuation τ sig (Elt F)) :
    after (opsTail (F := F)) W (Proc.devRef .tc main_v72)
      = broadcastInDim S1x1x1024 ![1, 2] bcast_S1x1024_S1x1x1024_1_2 (W (Proc.devRef .tc main_v66)) := by
  simp only [opsTail]
  after_results_simp

/-- They do not write the attention weights, -/
theorem tail_keep_v23 (W : Valuation τ sig (Elt F)) :
    after (opsTail (F := F)) W (Proc.devRef .tc main_v23) = W (Proc.devRef .tc main_v23) :=
  StableHlo.after_of_forall_not_mem (b := Proc.devRef .tc main_v23) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 0. -/
theorem tail_keep_arg0 (W : Valuation τ sig (Elt F)) :
    after (opsTail (F := F)) W (Proc.devRef .tc main_arg0) = W (Proc.devRef .tc main_arg0) :=
  StableHlo.after_of_forall_not_mem (b := Proc.devRef .tc main_arg0) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 1. -/
theorem tail_keep_arg1 (W : Valuation τ sig (Elt F)) :
    after (opsTail (F := F)) W (Proc.devRef .tc main_arg1) = W (Proc.devRef .tc main_arg1) :=
  StableHlo.after_of_forall_not_mem (b := Proc.devRef .tc main_arg1) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 2. -/
theorem tail_keep_arg2 (W : Valuation τ sig (Elt F)) :
    after (opsTail (F := F)) W (Proc.devRef .tc main_arg2) = W (Proc.devRef .tc main_arg2) :=
  StableHlo.after_of_forall_not_mem (b := Proc.devRef .tc main_arg2) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 3. -/
theorem tail_keep_arg3 (W : Valuation τ sig (Elt F)) :
    after (opsTail (F := F)) W (Proc.devRef .tc main_arg3) = W (Proc.devRef .tc main_arg3) :=
  StableHlo.after_of_forall_not_mem (b := Proc.devRef .tc main_arg3) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 4. -/
theorem tail_keep_arg4 (W : Valuation τ sig (Elt F)) :
    after (opsTail (F := F)) W (Proc.devRef .tc main_arg4) = W (Proc.devRef .tc main_arg4) :=
  StableHlo.after_of_forall_not_mem (b := Proc.devRef .tc main_arg4) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 5. -/
theorem tail_keep_arg5 (W : Valuation τ sig (Elt F)) :
    after (opsTail (F := F)) W (Proc.devRef .tc main_arg5) = W (Proc.devRef .tc main_arg5) :=
  StableHlo.after_of_forall_not_mem (b := Proc.devRef .tc main_arg5) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 6. -/
theorem tail_keep_arg6 (W : Valuation τ sig (Elt F)) :
    after (opsTail (F := F)) W (Proc.devRef .tc main_arg6) = W (Proc.devRef .tc main_arg6) :=
  StableHlo.after_of_forall_not_mem (b := Proc.devRef .tc main_arg6) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 7. -/
theorem tail_keep_arg7 (W : Valuation τ sig (Elt F)) :
    after (opsTail (F := F)) W (Proc.devRef .tc main_arg7) = W (Proc.devRef .tc main_arg7) :=
  StableHlo.after_of_forall_not_mem (b := Proc.devRef .tc main_arg7) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 8. -/
theorem tail_keep_arg8 (W : Valuation τ sig (Elt F)) :
    after (opsTail (F := F)) W (Proc.devRef .tc main_arg8) = W (Proc.devRef .tc main_arg8) :=
  StableHlo.after_of_forall_not_mem (b := Proc.devRef .tc main_arg8) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 9. -/
theorem tail_keep_arg9 (W : Valuation τ sig (Elt F)) :
    after (opsTail (F := F)) W (Proc.devRef .tc main_arg9) = W (Proc.devRef .tc main_arg9) :=
  StableHlo.after_of_forall_not_mem (b := Proc.devRef .tc main_arg9) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 10. -/
theorem tail_keep_arg10 (W : Valuation τ sig (Elt F)) :
    after (opsTail (F := F)) W (Proc.devRef .tc main_arg10) = W (Proc.devRef .tc main_arg10) :=
  StableHlo.after_of_forall_not_mem (b := Proc.devRef .tc main_arg10) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 11. -/
theorem tail_keep_arg11 (W : Valuation τ sig (Elt F)) :
    after (opsTail (F := F)) W (Proc.devRef .tc main_arg11) = W (Proc.devRef .tc main_arg11) :=
  StableHlo.after_of_forall_not_mem (b := Proc.devRef .tc main_arg11) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 12. -/
theorem tail_keep_arg12 (W : Valuation τ sig (Elt F)) :
    after (opsTail (F := F)) W (Proc.devRef .tc main_arg12) = W (Proc.devRef .tc main_arg12) :=
  StableHlo.after_of_forall_not_mem (b := Proc.devRef .tc main_arg12) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor argument 13. -/
theorem tail_keep_arg13 (W : Valuation τ sig (Elt F)) :
    after (opsTail (F := F)) W (Proc.devRef .tc main_arg13) = W (Proc.devRef .tc main_arg13) :=
  StableHlo.after_of_forall_not_mem (b := Proc.devRef .tc main_arg13) _ _ (List.forall_iff_forall_mem.mp (by
    simp only [opsTail, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first seventy-nine operations write no argument -/

/-- The operations before the projection do not write argument 0. -/
theorem pre_keep_arg0 (W : Valuation τ sig (Elt F)) :
    after (opsPre (F := F)) W (Proc.devRef .tc main_arg0) = W (Proc.devRef .tc main_arg0) :=
  StableHlo.after_of_forall_not_mem (b := Proc.devRef .tc main_arg0) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 1. -/
theorem pre_keep_arg1 (W : Valuation τ sig (Elt F)) :
    after (opsPre (F := F)) W (Proc.devRef .tc main_arg1) = W (Proc.devRef .tc main_arg1) :=
  StableHlo.after_of_forall_not_mem (b := Proc.devRef .tc main_arg1) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 2. -/
theorem pre_keep_arg2 (W : Valuation τ sig (Elt F)) :
    after (opsPre (F := F)) W (Proc.devRef .tc main_arg2) = W (Proc.devRef .tc main_arg2) :=
  StableHlo.after_of_forall_not_mem (b := Proc.devRef .tc main_arg2) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 3. -/
theorem pre_keep_arg3 (W : Valuation τ sig (Elt F)) :
    after (opsPre (F := F)) W (Proc.devRef .tc main_arg3) = W (Proc.devRef .tc main_arg3) :=
  StableHlo.after_of_forall_not_mem (b := Proc.devRef .tc main_arg3) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 4. -/
theorem pre_keep_arg4 (W : Valuation τ sig (Elt F)) :
    after (opsPre (F := F)) W (Proc.devRef .tc main_arg4) = W (Proc.devRef .tc main_arg4) :=
  StableHlo.after_of_forall_not_mem (b := Proc.devRef .tc main_arg4) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 5. -/
theorem pre_keep_arg5 (W : Valuation τ sig (Elt F)) :
    after (opsPre (F := F)) W (Proc.devRef .tc main_arg5) = W (Proc.devRef .tc main_arg5) :=
  StableHlo.after_of_forall_not_mem (b := Proc.devRef .tc main_arg5) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 6. -/
theorem pre_keep_arg6 (W : Valuation τ sig (Elt F)) :
    after (opsPre (F := F)) W (Proc.devRef .tc main_arg6) = W (Proc.devRef .tc main_arg6) :=
  StableHlo.after_of_forall_not_mem (b := Proc.devRef .tc main_arg6) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 7. -/
theorem pre_keep_arg7 (W : Valuation τ sig (Elt F)) :
    after (opsPre (F := F)) W (Proc.devRef .tc main_arg7) = W (Proc.devRef .tc main_arg7) :=
  StableHlo.after_of_forall_not_mem (b := Proc.devRef .tc main_arg7) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 8. -/
theorem pre_keep_arg8 (W : Valuation τ sig (Elt F)) :
    after (opsPre (F := F)) W (Proc.devRef .tc main_arg8) = W (Proc.devRef .tc main_arg8) :=
  StableHlo.after_of_forall_not_mem (b := Proc.devRef .tc main_arg8) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 9. -/
theorem pre_keep_arg9 (W : Valuation τ sig (Elt F)) :
    after (opsPre (F := F)) W (Proc.devRef .tc main_arg9) = W (Proc.devRef .tc main_arg9) :=
  StableHlo.after_of_forall_not_mem (b := Proc.devRef .tc main_arg9) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 10. -/
theorem pre_keep_arg10 (W : Valuation τ sig (Elt F)) :
    after (opsPre (F := F)) W (Proc.devRef .tc main_arg10) = W (Proc.devRef .tc main_arg10) :=
  StableHlo.after_of_forall_not_mem (b := Proc.devRef .tc main_arg10) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 11. -/
theorem pre_keep_arg11 (W : Valuation τ sig (Elt F)) :
    after (opsPre (F := F)) W (Proc.devRef .tc main_arg11) = W (Proc.devRef .tc main_arg11) :=
  StableHlo.after_of_forall_not_mem (b := Proc.devRef .tc main_arg11) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 12. -/
theorem pre_keep_arg12 (W : Valuation τ sig (Elt F)) :
    after (opsPre (F := F)) W (Proc.devRef .tc main_arg12) = W (Proc.devRef .tc main_arg12) :=
  StableHlo.after_of_forall_not_mem (b := Proc.devRef .tc main_arg12) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the projection do not write argument 13. -/
theorem pre_keep_arg13 (W : Valuation τ sig (Elt F)) :
    after (opsPre (F := F)) W (Proc.devRef .tc main_arg13) = W (Proc.devRef .tc main_arg13) :=
  StableHlo.after_of_forall_not_mem (b := Proc.devRef .tc main_arg13) _ _ (List.forall_iff_forall_mem.mp (by
    simp only [opsPre, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The logits at an entry -/

theorem rl_lhs_0 (i : S1x50257.Idx) (q : dot_S1x1024_S1024x50257_S1x50257_1_0_0_1_n_n.contr.Idx) :
    (dot_S1x1024_S1024x50257_S1x50257_1_0_0_1_n_n.lhsIdx i q 0).val = (i 0).val := by
  unfold DotDims.lhsIdx
  rw [dif_neg (show ¬(0 : Fin S1x1024.rank) ∈ dot_S1x1024_S1024x50257_S1x50257_1_0_0_1_n_n.lhsBatch by decide), dif_pos (show (0 : Fin S1x1024.rank) ∈ dot_S1x1024_S1024x50257_S1x50257_1_0_0_1_n_n.lhsNonContracting by decide)]
  rfl
theorem rl_lhs_1 (i : S1x50257.Idx) (q : dot_S1x1024_S1024x50257_S1x50257_1_0_0_1_n_n.contr.Idx) :
    (dot_S1x1024_S1024x50257_S1x50257_1_0_0_1_n_n.lhsIdx i q 1).val = (q ⟨0, by decide⟩).val :=
  dot_S1x1024_S1024x50257_S1x50257_1_0_0_1_n_n.lhsIdx_val_of_single rfl i q
theorem rl_rhs_0 (i : S1x50257.Idx) (q : dot_S1x1024_S1024x50257_S1x50257_1_0_0_1_n_n.contr.Idx) :
    (dot_S1x1024_S1024x50257_S1x50257_1_0_0_1_n_n.rhsIdx i q 0).val = (q ⟨0, by decide⟩).val :=
  dot_S1x1024_S1024x50257_S1x50257_1_0_0_1_n_n.rhsIdx_val_of_single rfl i q
theorem rl_rhs_1 (i : S1x50257.Idx) (q : dot_S1x1024_S1024x50257_S1x50257_1_0_0_1_n_n.contr.Idx) :
    (dot_S1x1024_S1024x50257_S1x50257_1_0_0_1_n_n.rhsIdx i q 1).val = (i 1).val := by
  unfold DotDims.rhsIdx
  rw [dif_neg (show ¬(1 : Fin S1024x50257.rank) ∈ dot_S1x1024_S1024x50257_S1x50257_1_0_0_1_n_n.rhsBatch by decide), dif_pos (show (1 : Fin S1024x50257.rank) ∈ dot_S1x1024_S1024x50257_S1x50257_1_0_0_1_n_n.rhsNonContracting by decide)]
  rfl

/-- The entries of the hidden row, of the transposed matrix, of the matrix and of the bias that logits entry `i` reads. -/
abbrev hAt (i : S1x50257.Idx) (k : Fin 1024) : S1x1024.Idx := fun a => match a with
  | ⟨0, _⟩ => ⟨(i 0).val, (i 0).isLt⟩
  | ⟨1, _⟩ => ⟨k.val, k.isLt⟩
abbrev tAt (i : S1x50257.Idx) (k : Fin 1024) : S1024x50257.Idx := fun a => match a with
  | ⟨0, _⟩ => ⟨k.val, k.isLt⟩
  | ⟨1, _⟩ => ⟨(i 1).val, (i 1).isLt⟩
abbrev wAt (i : S1x50257.Idx) (k : Fin 1024) : S50257x1024.Idx := fun a => match a with
  | ⟨0, _⟩ => ⟨(i 1).val, (i 1).isLt⟩
  | ⟨1, _⟩ => ⟨k.val, k.isLt⟩
abbrev bAt (i : S1x50257.Idx) : S50257.Idx := fun a => match a with
  | ⟨0, _⟩ => ⟨(i 1).val, (i 1).isLt⟩

/-- Over the extended reals entry `i` of the logits is `Σₖ h[k] · W[i, k] + b[i]`. -/
theorem refLogits_apply (h : FVec Ideal S1x1024 .f32) (W : FVec Ideal S50257x1024 .f32) (b : FVec Ideal S50257 .f32) (i : S1x50257.Idx) :
    refLogits (F := Ideal) h W b i = (∑ k : Fin 1024, h (hAt i k) * W (wAt i k)) + b (bAt i) := by
  unfold refLogits
  rw [ValueIdx.addf_apply]
  have hb : broadcastInDim S1x50257 ![1] bcast_S50257_S1x50257_1 b i = b (bAt i) :=
    broadcastInDim_apply _ bcast_S50257_S1x50257_1 b i (bAt i) (fun a => match a with
      | ⟨0, _⟩ => by show (i 1).val = if (50257 : Nat) = 1 then 0 else (i 1).val; rw [if_neg (by decide)])
  rw [hb]
  refine congrArg (· + b (bAt i)) ?_
  have ht : ∀ k : Fin 1024, transpose S1024x50257 [1, 0] W transposes_S50257x1024_S1024x50257_1_0 (tAt i k) = W (wAt i k) := fun k =>
    transpose_apply [1, 0] W transposes_S50257x1024_S1024x50257_1_0 (tAt i k) (wAt i k) (fun b => match b with
      | ⟨0, _⟩ => rfl
      | ⟨1, _⟩ => rfl)
  generalize transpose S1024x50257 [1, 0] W transposes_S50257x1024_S1024x50257_1_0 = Tm at ht ⊢
  simp only [Host.dotGeneral]
  rw [Ideal.dotGeneral_apply, ← Equiv.sum_comp (ValueIdx.contrEquiv1 dot_S1x1024_S1024x50257_S1x50257_1_0_0_1_n_n 1024 rfl rfl).symm]
  refine Finset.sum_congr rfl fun k _ => ?_
  have hk := ValueIdx.contrEquiv1_symm_val dot_S1x1024_S1024x50257_S1x50257_1_0_0_1_n_n 1024 rfl rfl k
  have el : dot_S1x1024_S1024x50257_S1x50257_1_0_0_1_n_n.lhsIdx i ((ValueIdx.contrEquiv1 dot_S1x1024_S1024x50257_S1x50257_1_0_0_1_n_n 1024 rfl rfl).symm k) = hAt i k := funext fun a => Fin.ext (by
    match a with
    | ⟨0, _⟩ => exact rl_lhs_0 _ _
    | ⟨1, _⟩ => exact (rl_lhs_1 _ _).trans hk)
  have er : dot_S1x1024_S1024x50257_S1x50257_1_0_0_1_n_n.rhsIdx i ((ValueIdx.contrEquiv1 dot_S1x1024_S1024x50257_S1x50257_1_0_0_1_n_n 1024 rfl rfl).symm k) = tAt i k := funext fun a => Fin.ext (by
    match a with
    | ⟨0, _⟩ => exact (rl_rhs_0 _ _).trans hk
    | ⟨1, _⟩ => exact rl_rhs_1 _ _)
  rw [el, er, ht k]

/-! ## The run, read -/

/-- The hidden row and the attention weights as the first seventy-nine operations leave them. -/
def hid (m : (ℓ : Loc nD τ sig) → Buf (Elt F) ℓ) (c : Dev nD) : Buf (Elt F) ((c.tc : Thread nD τ).loc main_v66) :=
  after (opsPre (F := F)) (launchContents m c) (Proc.devRef .tc main_v66)
def att (m : (ℓ : Loc nD τ sig) → Buf (Elt F) ℓ) (c : Dev nD) : Buf (Elt F) ((c.tc : Thread nD τ).loc main_v23) :=
  after (opsPre (F := F)) (launchContents m c) (Proc.devRef .tc main_v23)

/-- Every weakly fair execution of the reference terminates; its results are the log-softmax of the logits of the hidden
    row, the hidden row with a unit axis, and the attention weights; its arguments are unchanged. -/
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
        = logSoftmaxRow (F := F) (refLogits (hid m c) (m ((c.tc : Thread nD τ).loc main_arg12)) (m ((c.tc : Thread nD τ).loc main_arg13)))
      ∧ r.2.mem ((c.tc : Thread nD τ).loc main_v72) = broadcastInDim S1x1x1024 ![1, 2] bcast_S1x1024_S1x1x1024_1_2 (hid m c)
      ∧ r.2.mem ((c.tc : Thread nD τ).loc main_v23) = att m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨
      (h c main_v71).trans (by rw [after_ops, tail71_of, pre_keep_arg12, pre_keep_arg13]; rfl),
      (h c main_v72).trans (by rw [after_ops, tail72_of]; rfl),
      (h c main_v23).trans (by rw [after_ops, tail_keep_v23]; rfl),
      (h c main_arg0).trans (by rw [after_ops, tail_keep_arg0, pre_keep_arg0]),
      (h c main_arg1).trans (by rw [after_ops, tail_keep_arg1, pre_keep_arg1]),
      (h c main_arg2).trans (by rw [after_ops, tail_keep_arg2, pre_keep_arg2]),
      (h c main_arg3).trans (by rw [after_ops, tail_keep_arg3, pre_keep_arg3]),
      (h c main_arg4).trans (by rw [after_ops, tail_keep_arg4, pre_keep_arg4]),
      (h c main_arg5).trans (by rw [after_ops, tail_keep_arg5, pre_keep_arg5]),
      (h c main_arg6).trans (by rw [after_ops, tail_keep_arg6, pre_keep_arg6]),
      (h c main_arg7).trans (by rw [after_ops, tail_keep_arg7, pre_keep_arg7]),
      (h c main_arg8).trans (by rw [after_ops, tail_keep_arg8, pre_keep_arg8]),
      (h c main_arg9).trans (by rw [after_ops, tail_keep_arg9, pre_keep_arg9]),
      (h c main_arg10).trans (by rw [after_ops, tail_keep_arg10, pre_keep_arg10]),
      (h c main_arg11).trans (by rw [after_ops, tail_keep_arg11, pre_keep_arg11]),
      (h c main_arg12).trans (by rw [after_ops, tail_keep_arg12, pre_keep_arg12]),
      (h c main_arg13).trans (by rw [after_ops, tail_keep_arg13, pre_keep_arg13])⟩)
    (run_fold m ρ)

end Cert.ReferenceIdeal.Hand

end
-- ==== Proof.BitsBody.lean ====
/-
  The kernel body, once, at any float instance.

  At a grid point the body reads three staging blocks whole — the hidden row `h` (1 × 1024), a block of 2048 rows of
  the projection matrix `W` (2048 × 1024) and the matching 2048 bias entries (1 × 2048) — and overwrites the whole
  output block (1 × 2048) with `h · Wᵀ + bias`: entry `j` of the block is the inner product of `h` with row `j` of
  the matrix block, plus bias entry `j`.  The three input blocks are left as they were found.  Nothing here depends
  on what the blocks contain, so the statement holds for word-level and for real-number contents alike.
-/
import proofs.«119405_j36335423324794_1_alg».proof.Proof.Gen.Kernel.Frame
import proofs.«119405_j36335423324794_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole hidden-row block, the whole matrix block, the whole bias / output block, as rectangles. -/
abbrev rH : Rect S1x1024 := Rect.unit (s := S1x1024) ![0, 0] S1x1024.size inb_S1x1024_S1x1024_0_0
abbrev rW : Rect S2048x1024 := Rect.unit (s := S2048x1024) ![0, 0] S2048x1024.size inb_S2048x1024_S2048x1024_0_0
abbrev rO : Rect S1x2048 := Rect.unit (s := S1x2048) ![0, 0] S1x2048.size inb_S1x2048_S1x2048_0_0

/-- What the body leaves in the output block, from the three input blocks: one store of the whole block, whose
    payload is `h · Wᵀ + bias` of the blocks read whole. -/
def outBlk (xh : Vec F S1x1024 .f32) (xw : Vec F S2048x1024 .f32) (xb : Vec F S1x2048 .f32) : Vec F S1x2048 .f32 :=
  View.canon [⟨rO, k0_pay1 (View.ld xh rH) (View.ld xw rW) (View.ld xb rO)⟩]

/-- The one store covers the output block. -/
theorem cover_out (p0 : Vec F S1x2048 .f32) (y : S1x2048.Idx) :
    ∃ pc ∈ ([⟨rO, p0⟩] : List (View.Piece (Elt F) S1x2048 .f32)), y ∈ pc.1.set :=
  View.cover_of_tiled [⟨rO, p0⟩] S1x2048.size (by rfl) y

set_option maxHeartbeats 1000000 in
/-- The body on four whole staging memrefs: from the inputs at contents `xh`, `xw`, `xb` and the output at anything,
    it runs to the inputs unchanged and the output at `outBlk xh xw xb`. -/
theorem sound_kernel (c : Dev nD) (E : Set ℕ) (i : grid0.Coords)
    (arg1 : Memref sig .tc .vmem S1x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (xh : Vec F S1x1024 .f32) (xw : Vec F S2048x1024 .f32) (xb : Vec F S1x2048 .f32) (K : PUnit → sProp 𝕄) :
    iprop(owns (c : Thread nD τ) arg1 fullShare xh ∗ owns (c : Thread nD τ) arg2 fullShare xw
        ∗ owns (c : Thread nD τ) arg3 fullShare xb ∗ (∃ d, owns (c : Thread nD τ) arg4 fullShare d)
        ∗ (iprop(owns (c : Thread nD τ) arg1 fullShare xh ∗ owns (c : Thread nD τ) arg2 fullShare xw
            ∗ owns (c : Thread nD τ) arg3 fullShare xb ∗ owns (c : Thread nD τ) arg4 fullShare (outBlk xh xw xb)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.BitsFrame.lean ====
/-
  The word-level program runs to the end, faults nowhere and leaves its fourteen argument arrays as they were.

  The last of the 25 blocks of the projection matrix (and of the bias and of the result) reaches 943 rows past the
  array's end; the rows of the staging buffer past the end hold words nothing names, and at word level the matrix
  unit's result is not described column by column, so what the last result block holds is not named here.  The frame
  does not need it: the proof data say nothing about what the body leaves in any staging buffer, the body is run
  only to see that it terminates without fault and hands every buffer back, and the run's conclusion is read only at
  the argument arrays.  Thirteen of them are touched by no transfer and by no later host operation; the fourteenth,
  the projection matrix, is an input of the region and is never written.
-/
import proofs.«119405_j36335423324794_1_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that name the arrays as the region finds them and nothing else. -/
def datsF (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- Every window's staging contents are left unnamed. -/
abbrev allW : Fin cfg0.W → Bool := fun _ => true

/-- At every point the body, handed the four current staging buffers at any contents, runs and hands them back. -/
theorem body_obligationF (c : Dev nD) :
    BodyObligation (datsF (F := F) m 0 c) (defs₀ (F := F)) Variants.none () Set.univ allW := fun t => by
  simp only [bigSep_W0]
  show iprop((datsF m 0 c).Φ t.castSucc ∗ (datsF m 0 c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X))
      ⊢ wp frame (wpE (defs₀ (F := F)) Variants.none c none) Set.univ (bodyAt0 t) (fun _ =>
        iprop((datsF m 0 c).Φ t.succ ∗ (datsF m 0 c).owesAt () t.succ
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X)))
  rw [show (datsF m 0 c).Φ t.succ = (datsF m 0 c).Φ t.castSucc from rfl,
    show (datsF m 0 c).owesAt () t.succ = (datsF m 0 c).owesAt () t.castSucc from rfl]
  iintro ⟨HΦ, Ho, ⟨%X0, H0⟩, ⟨%X1, H1⟩, ⟨%X2, H2⟩, H3⟩
  iapply (sound_kernel c Set.univ (grid0.coords t) _ _ _ _ _ _ _ _ X0 X1 X2 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The same data read as a relation that asks nothing of any window. -/
abbrev rdatF (c : Dev nD) : RDat τ (Elt F) Unit ℕ (UR sig nD τ) ℕ cfg0 c := (datsF m 0 c).toRForget allW

/-- The argument arrays. -/
def argSet : Finset (Ref sig .tc) := {main_arg0, main_arg1, main_arg2, main_arg3, main_arg4, main_arg5, main_arg6, main_arg7, main_arg8, main_arg9, main_arg10, main_arg11, main_arg12, main_arg13}

/-- Every buffer that is no argument array: the host operations after the region write only such buffers. -/
def notArgs : Finset (Ref sig .tc) := Finset.univ.filter fun b => b ∉ argSet

theorem mem_notArgs {b : Ref sig .tc} (h : b ∉ argSet) : b ∈ notArgs := Finset.mem_filter.mpr ⟨Finset.mem_univ _, h⟩
theorem not_mem_notArgs {b : Ref sig .tc} (h : b ∈ argSet) : b ∉ notArgs := fun h' => (Finset.mem_filter.mp h').2 h

/-- The host operations after the region write no argument array. -/
theorem sfx_writes : ∀ ops ∈ ([hostOps1, hostOps1_1] : List (List (HloOp τ sig (Elt F)))), ∀ op ∈ ops,
    ∀ b : Ref sig .tc, Proc.devRef .tc b ∈ op.writes → b ∈ notArgs := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      have e := Proc.devRef_injective _ hb
      subst e
      exact mem_notArgs (by decide)
  · simp only [hostOps1_1, List.mem_cons, List.mem_nil_iff, or_false] at hop
    rcases hop with rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      have e := Proc.devRef_injective _ hb
      subst e
      exact mem_notArgs (by decide)

set_option backward.isDefEq.respectTransparency.types false in
/-- Every weakly fair execution of @main terminates without fault; the windowed arrays end at contents the relation
    allows and every other buffer the later host operations do not write ends as the region found it. -/
theorem run_frame : θ_run defs (onTc (τ := τ) (main (F := F))) (s₀ m ρ)
    (RDat.FramePostR cfg0 (rdatF m) notArgs (fun c b => V0 m c (Proc.devRef .tc b))) :=
  Pipeline.RDat.θ_run_frame_around_T cfgs (0 : Fin 1) launch0 defs₀ Variants.none (rdatF m) notArgs m ρ main
    (hbody := fun c => (body_obligationF m c).toRForget)
    (hshare := fun c => (datsF m 0 c).share_full fun _ => rfl)
    (howed := fun _ _ => rfl) (V₀ := V0 m) (opss := [hostOps1, hostOps1_1]) (hsub := sfx_sub) (hfresh := sfx_fresh) (hkeep := sfx_keeps)
    (hT := sfx_writes)
    (hmain := hmain m Variants.none) (hA := fun _ _ => rfl) (hΦ := fun _ _ => rfl)

/-- The frame of the program at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      (((h c).2 main_arg0 (Finset.mem_sdiff.mpr ⟨Pipeline.mem_restRefs_of main_arg0 (by decide) (by decide), not_mem_notArgs (by decide)⟩)).trans (V_main_arg0 m c)),
      (((h c).2 main_arg1 (Finset.mem_sdiff.mpr ⟨Pipeline.mem_restRefs_of main_arg1 (by decide) (by decide), not_mem_notArgs (by decide)⟩)).trans (V_main_arg1 m c)),
      (((h c).2 main_arg2 (Finset.mem_sdiff.mpr ⟨Pipeline.mem_restRefs_of main_arg2 (by decide) (by decide), not_mem_notArgs (by decide)⟩)).trans (V_main_arg2 m c)),
      (((h c).2 main_arg3 (Finset.mem_sdiff.mpr ⟨Pipeline.mem_restRefs_of main_arg3 (by decide) (by decide), not_mem_notArgs (by decide)⟩)).trans (V_main_arg3 m c)),
      (((h c).2 main_arg4 (Finset.mem_sdiff.mpr ⟨Pipeline.mem_restRefs_of main_arg4 (by decide) (by decide), not_mem_notArgs (by decide)⟩)).trans (V_main_arg4 m c)),
      (((h c).2 main_arg5 (Finset.mem_sdiff.mpr ⟨Pipeline.mem_restRefs_of main_arg5 (by decide) (by decide), not_mem_notArgs (by decide)⟩)).trans (V_main_arg5 m c)),
      (((h c).2 main_arg6 (Finset.mem_sdiff.mpr ⟨Pipeline.mem_restRefs_of main_arg6 (by decide) (by decide), not_mem_notArgs (by decide)⟩)).trans (V_main_arg6 m c)),
      (((h c).2 main_arg7 (Finset.mem_sdiff.mpr ⟨Pipeline.mem_restRefs_of main_arg7 (by decide) (by decide), not_mem_notArgs (by decide)⟩)).trans (V_main_arg7 m c)),
      (((h c).2 main_arg8 (Finset.mem_sdiff.mpr ⟨Pipeline.mem_restRefs_of main_arg8 (by decide) (by decide), not_mem_notArgs (by decide)⟩)).trans (V_main_arg8 m c)),
      (((h c).2 main_arg9 (Finset.mem_sdiff.mpr ⟨Pipeline.mem_restRefs_of main_arg9 (by decide) (by decide), not_mem_notArgs (by decide)⟩)).trans (V_main_arg9 m c)),
      (((h c).2 main_arg10 (Finset.mem_sdiff.mpr ⟨Pipeline.mem_restRefs_of main_arg10 (by decide) (by decide), not_mem_notArgs (by decide)⟩)).trans (V_main_arg10 m c)),
      (((h c).2 main_arg11 (Finset.mem_sdiff.mpr ⟨Pipeline.mem_restRefs_of main_arg11 (by decide) (by decide), not_mem_notArgs (by decide)⟩)).trans (V_main_arg11 m c)),
      ((Pipeline.RDat.FramePostR.arr_in h c (1 : Fin 4) rfl).trans (V_main_arg12 m c)),
      (((h c).2 main_arg13 (Finset.mem_sdiff.mpr ⟨Pipeline.mem_restRefs_of main_arg13 (by decide) (by decide), not_mem_notArgs (by decide)⟩)).trans (V_main_arg13 m c))⟩)
    (run_frame m ρ)

end Cert.Kernel.Hand

end
-- ==== Proof.IdealBody.lean ====
/-
  The kernel body, once, at any float instance.

  At a grid point the body reads three staging blocks whole — the hidden row `h` (1 × 1024), a block of 2048 rows of
  the projection matrix `W` (2048 × 1024) and the matching 2048 bias entries (1 × 2048) — and overwrites the whole
  output block (1 × 2048) with `h · Wᵀ + bias`: entry `j` of the block is the inner product of `h` with row `j` of
  the matrix block, plus bias entry `j`.  The three input blocks are left as they were found.  Nothing here depends
  on what the blocks contain, so the statement holds for word-level and for real-number contents alike.
-/
import proofs.«119405_j36335423324794_1_alg».proof.Proof.Gen.KernelIdeal.Frame
import proofs.«119405_j36335423324794_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole hidden-row block, the whole matrix block, the whole bias / output block, as rectangles. -/
abbrev rH : Rect S1x1024 := Rect.unit (s := S1x1024) ![0, 0] S1x1024.size inb_S1x1024_S1x1024_0_0
abbrev rW : Rect S2048x1024 := Rect.unit (s := S2048x1024) ![0, 0] S2048x1024.size inb_S2048x1024_S2048x1024_0_0
abbrev rO : Rect S1x2048 := Rect.unit (s := S1x2048) ![0, 0] S1x2048.size inb_S1x2048_S1x2048_0_0

/-- What the body leaves in the output block, from the three input blocks: one store of the whole block, whose
    payload is `h · Wᵀ + bias` of the blocks read whole. -/
def outBlk (xh : Vec F S1x1024 .f32) (xw : Vec F S2048x1024 .f32) (xb : Vec F S1x2048 .f32) : Vec F S1x2048 .f32 :=
  View.canon [⟨rO, k0_pay1 (View.ld xh rH) (View.ld xw rW) (View.ld xb rO)⟩]

/-- The one store covers the output block. -/
theorem cover_out (p0 : Vec F S1x2048 .f32) (y : S1x2048.Idx) :
    ∃ pc ∈ ([⟨rO, p0⟩] : List (View.Piece (Elt F) S1x2048 .f32)), y ∈ pc.1.set :=
  View.cover_of_tiled [⟨rO, p0⟩] S1x2048.size (by rfl) y

set_option maxHeartbeats 1000000 in
/-- The body on four whole staging memrefs: from the inputs at contents `xh`, `xw`, `xb` and the output at anything,
    it runs to the inputs unchanged and the output at `outBlk xh xw xb`. -/
theorem sound_kernel (c : Dev nD) (E : Set ℕ) (i : grid0.Coords)
    (arg1 : Memref sig .tc .vmem S1x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (xh : Vec F S1x1024 .f32) (xw : Vec F S2048x1024 .f32) (xb : Vec F S1x2048 .f32) (K : PUnit → sProp 𝕄) :
    iprop(owns (c : Thread nD τ) arg1 fullShare xh ∗ owns (c : Thread nD τ) arg2 fullShare xw
        ∗ owns (c : Thread nD τ) arg3 fullShare xb ∗ (∃ d, owns (c : Thread nD τ) arg4 fullShare d)
        ∗ (iprop(owns (c : Thread nD τ) arg1 fullShare xh ∗ owns (c : Thread nD τ) arg2 fullShare xw
            ∗ owns (c : Thread nD τ) arg3 fullShare xb ∗ owns (c : Thread nD τ) arg4 fullShare (outBlk xh xw xb)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.IdealFrame.lean ====
/-
  The idealized program's pipeline, with every staging buffer's contents named.

  At grid point `t` the body finds the hidden row `h` (fetched once, kept), block `t` of the projection matrix and
  block `t` of the bias.  Block 24 reaches 943 rows past the array's end: a fetch fills only the rows inside the array
  and the rest of the buffer holds values nothing names.  Over the extended reals entry `j` of the body's result is
  `Σₖ h[k] · Wblk[j, k] + bias[j]`, which reads only row `j` of the matrix block and entry `j` of the bias block, so
  on the entries that are written back (those inside the array) the result does not depend on the unnamed rows.  That
  is what the body obligation states; the unnamed part is filled with zero in the proof data and never read.
-/
import proofs.«119405_j36335423324794_1_alg».proof.Proof.IdealBody
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The body's result at an entry, over the extended reals -/

theorem mm_lhs_0 (i : S1x2048.Idx) (q : dot_S1x1024_S2048x1024_S1x2048_1_1_0_0_n_n.contr.Idx) :
    (dot_S1x1024_S2048x1024_S1x2048_1_1_0_0_n_n.lhsIdx i q 0).val = (i 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
theorem mm_lhs_1 (i : S1x2048.Idx) (q : dot_S1x1024_S2048x1024_S1x2048_1_1_0_0_n_n.contr.Idx) :
    (dot_S1x1024_S2048x1024_S1x2048_1_1_0_0_n_n.lhsIdx i q 1).val = (q ⟨0, by decide⟩).val :=
  dot_S1x1024_S2048x1024_S1x2048_1_1_0_0_n_n.lhsIdx_val_of_single rfl i q
theorem mm_rhs_0 (i : S1x2048.Idx) (q : dot_S1x1024_S2048x1024_S1x2048_1_1_0_0_n_n.contr.Idx) :
    (dot_S1x1024_S2048x1024_S1x2048_1_1_0_0_n_n.rhsIdx i q 0).val = (i 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
theorem mm_rhs_1 (i : S1x2048.Idx) (q : dot_S1x1024_S2048x1024_S1x2048_1_1_0_0_n_n.contr.Idx) :
    (dot_S1x1024_S2048x1024_S1x2048_1_1_0_0_n_n.rhsIdx i q 1).val = (q ⟨0, by decide⟩).val :=
  dot_S1x1024_S2048x1024_S1x2048_1_1_0_0_n_n.rhsIdx_val_of_single rfl i q

/-- Entry `k` of the hidden row, and entry `k` of the matrix block's row that output entry `i` reads. -/
abbrev hIdx (i : S1x2048.Idx) (k : Fin 1024) : S1x1024.Idx := fun a => match a with
  | ⟨0, _⟩ => ⟨(i 0).val, (i 0).isLt⟩
  | ⟨1, _⟩ => ⟨k.val, k.isLt⟩
abbrev wIdx (i : S1x2048.Idx) (k : Fin 1024) : S2048x1024.Idx := fun a => match a with
  | ⟨0, _⟩ => ⟨(i 1).val, (i 1).isLt⟩
  | ⟨1, _⟩ => ⟨k.val, k.isLt⟩

/-- The matrix unit's product into a zero accumulator, at an output entry: the inner product of the row with the
    matrix block's row of that entry. -/
theorem matmul_entry (l : FVec Ideal S1x1024 .bf16) (r : FVec Ideal S2048x1024 .bf16) (i : S1x2048.Idx) :
    matmul dot_S1x1024_S2048x1024_S1x2048_1_1_0_0_n_n none l r (constant S1x2048 .f32 0x00000000#32) i
      = ∑ k : Fin 1024, l (hIdx i k) * r (wIdx i k) := by
  simp only [matmul]
  rw [Ideal.matmul_constant_zero_apply, ← Equiv.sum_comp (ValueIdx.contrEquiv1 dot_S1x1024_S2048x1024_S1x2048_1_1_0_0_n_n 1024 rfl rfl).symm]
  refine Finset.sum_congr rfl fun k _ => ?_
  have hk := ValueIdx.contrEquiv1_symm_val dot_S1x1024_S2048x1024_S1x2048_1_1_0_0_n_n 1024 rfl rfl k
  have el : dot_S1x1024_S2048x1024_S1x2048_1_1_0_0_n_n.lhsIdx i ((ValueIdx.contrEquiv1 dot_S1x1024_S2048x1024_S1x2048_1_1_0_0_n_n 1024 rfl rfl).symm k) = hIdx i k := funext fun a => Fin.ext (by
    match a with
    | ⟨0, _⟩ => exact mm_lhs_0 _ _
    | ⟨1, _⟩ => exact (mm_lhs_1 _ _).trans hk)
  have er : dot_S1x1024_S2048x1024_S1x2048_1_1_0_0_n_n.rhsIdx i ((ValueIdx.contrEquiv1 dot_S1x1024_S2048x1024_S1x2048_1_1_0_0_n_n 1024 rfl rfl).symm k) = wIdx i k := funext fun a => Fin.ext (by
    match a with
    | ⟨0, _⟩ => exact mm_rhs_0 _ _
    | ⟨1, _⟩ => exact (mm_rhs_1 _ _).trans hk)
  rw [el, er]

/-- The body's payload at an entry: `Σₖ h[k] · Wblk[j, k] + bias[j]` (the change of float format is the identity over
    the extended reals, and so are the two trivial reshapes). -/
theorem pay_apply (v0 : Vec Ideal S1x1024 .f32) (v3 : Vec Ideal S2048x1024 .f32) (v6 : Vec Ideal S1x2048 .f32) (i : S1x2048.Idx) :
    k0_pay1 (F := Ideal) v0 v3 v6 i = (∑ k : Fin 1024, v0 (hIdx i k) * v3 (wIdx i k)) + v6 i := by
  unfold k0_pay1
  rw [ValueIdx.addf_apply, matmul_entry, shapeCast_self, shapeCast_self]
  rfl

/-- The body's result block at an entry. -/
theorem outBlk_apply (xh : Vec Ideal S1x1024 .f32) (xw : Vec Ideal S2048x1024 .f32) (xb : Vec Ideal S1x2048 .f32) (i : S1x2048.Idx) :
    outBlk (F := Ideal) xh xw xb i = (∑ k : Fin 1024, xh (hIdx i k) * xw (wIdx i k)) + xb i := by
  have hz : (![0, 0] : Fin 2 → Nat) = fun _ => 0 := funext fun a => by fin_cases a <;> rfl
  unfold outBlk
  rw [View.canon_unit_zero hz]
  simp only [View.ld_unit_zero (S := S1x1024) hz, View.ld_unit_zero (S := S2048x1024) hz, View.ld_unit_zero (S := S1x2048) hz]
  exact pay_apply xh xw xb i

/-! ## The cuts at the array's end, decided over the grid -/

/-- At every point the matrix block is cut on its row axis exactly as the bias and result blocks are cut on their
    column axis, and no block is cut on its other axis. -/
theorem xsizes : ∀ t : Fin cfg0.N,
    win0_1.xsize (grid0.coords t) 0 = win0_3.xsize (grid0.coords t) 1 ∧ win0_1.xsize (grid0.coords t) 1 = 1024
    ∧ win0_2.xsize (grid0.coords t) 0 = 1 ∧ win0_2.xsize (grid0.coords t) 1 = win0_3.xsize (grid0.coords t) 1
    ∧ win0_3.xsize (grid0.coords t) 0 = 1 :=
  (by decide +kernel : ∀ t : Fin grid0.N,
    win0_1.xsize (grid0.coords t) 0 = win0_3.xsize (grid0.coords t) 1 ∧ win0_1.xsize (grid0.coords t) 1 = 1024
    ∧ win0_2.xsize (grid0.coords t) 0 = 1 ∧ win0_2.xsize (grid0.coords t) 1 = win0_3.xsize (grid0.coords t) 1
    ∧ win0_3.xsize (grid0.coords t) 0 = 1)

/-- On the part of a block a fetch fills, what filled the rest does not matter. -/
theorem fill_congr_moved {G : Pipeline.Grid} (w : Pipeline.Window sig G) {α : Type} (i : G.Coords) (d d' : w.block.Idx → α)
    (g : (w.xblock i).Idx → α) (j : w.block.Idx) (hm : w.moved i j = true) : w.fill i d g j = w.fill i d' g j := by
  unfold Pipeline.Window.fill; rw [dif_pos hm, dif_pos hm]

variable (m : (ℓ : Loc nD τ sig) → Buf (Elt Ideal) ℓ) (ρ : Dev nD → PrngReg)

local notation "𝕄" => MT nD τ sig Unit (Elt Ideal) ℕ (UR sig nD τ) ℕ

/-! ## The proof data -/

/-- The matrix block and the bias block at point `t` as whole staging contents: the part inside the array, and zero
    on the part past its end (which nothing reads). -/
def wFull (c : Dev nD) (t : Fin cfg0.N) : Vec Ideal S2048x1024 .f32 :=
  win0_1.fill (grid0.coords t) (fun _ => Scalar.ofBits (F := Ideal) .f32 0#32) (iblk m c 1 t)
def bFull (c : Dev nD) (t : Fin cfg0.N) : Vec Ideal S1x2048 .f32 :=
  win0_2.fill (grid0.coords t) (fun _ => Scalar.ofBits (F := Ideal) .f32 0#32) (iblk m c 2 t)

/-- After the body at point `t`: the hidden row's buffer holds the row, the matrix and bias buffers their blocks, and
    the result buffer `h · Wblkᵀ + biasblk`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wFull m c t
    | ⟨2, _⟩ => bFull m c t
    | ⟨3, _⟩ => outBlk (iblk m c 0 t) (wFull m c t) (bFull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = wFull m c t := by dsimp only [dats]
theorem after0_2 (c : Dev nD) (t : Fin cfg0.N) : (dats m 0 c).after 2 t = bFull m c t := by dsimp only [dats]
theorem after0_3 (c : Dev nD) (t : Fin cfg0.N) :
    (dats m 0 c).after 3 t = outBlk (iblk m c 0 t) (wFull m c t) (bFull m c t) := by dsimp only [dats]

/-- What the body finds: the hidden row, fetched at this point or kept from an earlier one; -/
theorem before0_0 (c : Dev nD) (t : Fin cfg0.N) (d) : (dats m 0 c).before 0 t d = iblk m c 0 t :=
  before0_0_of m (dats m 0 c) (A_eq m c 0) (after0_0 m c) t d
/-- the matrix block and the bias block just fetched: the part inside the array, anything past it; -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- the result buffer at anything (it was written back at the point before). -/
theorem before0_3 (c : Dev nD) (t : Fin cfg0.N) (d) : (dats m 0 c).before 3 t d = d :=
  (dats m 0 c).before_out_reset 3 rfl t
    (by by_cases h : t.val = 0
        · exact Or.inl h
        · exact Or.inr ⟨h, flush0_3 _⟩) d

/-! ## The written-back part of the result does not depend on the rows past the array's end -/

theorem cutOut_eq (c : Dev nD) (t : Fin cfg0.N) (xh : Vec Ideal S1x1024 .f32)
    (d1 d1' : S2048x1024.Idx → Elt Ideal .f32) (d2 d2' : S1x2048.Idx → Elt Ideal .f32)
    (g1 : (win0_1.xblock (grid0.coords t)).Idx → Elt Ideal .f32) (g2 : (win0_2.xblock (grid0.coords t)).Idx → Elt Ideal .f32) :
    win0_3.cut (grid0.coords t) (outBlk xh (win0_1.fill (grid0.coords t) d1 g1) (win0_2.fill (grid0.coords t) d2 g2))
      = win0_3.cut (grid0.coords t) (outBlk xh (win0_1.fill (grid0.coords t) d1' g1) (win0_2.fill (grid0.coords t) d2' g2)) := by
  funext y
  obtain ⟨e10, e11, e20, e21, e30⟩ := xsizes t
  have hy0 : (y 0).val < win0_3.xsize (grid0.coords t) 0 := (y 0).isLt
  have hy1 : (y 1).val < win0_3.xsize (grid0.coords t) 1 := (y 1).isLt
  show outBlk xh _ _ (win0_3.xinj (grid0.coords t) y) = outBlk xh _ _ (win0_3.xinj (grid0.coords t) y)
  rw [outBlk_apply, outBlk_apply]
  have hb : win0_2.moved (grid0.coords t) (win0_3.xinj (grid0.coords t) y) = true :=
    (win0_2.moved_iff _ _).mpr fun a => by
      match a with
      | ⟨0, _⟩ => show (y 0).val < win0_2.xsize (grid0.coords t) 0; omega
      | ⟨1, _⟩ => show (y 1).val < win0_2.xsize (grid0.coords t) 1; omega
  rw [fill_congr_moved win0_2 (grid0.coords t) d2 d2' g2 _ hb]
  refine congrArg (· + _) (Finset.sum_congr rfl fun k _ => ?_)
  have hw : win0_1.moved (grid0.coords t) (wIdx (win0_3.xinj (grid0.coords t) y) k) = true :=
    (win0_1.moved_iff _ _).mpr fun a => by
      match a with
      | ⟨0, _⟩ => show (y 1).val < win0_1.xsize (grid0.coords t) 0; omega
      | ⟨1, _⟩ => show k.val < win0_1.xsize (grid0.coords t) 1; have := k.isLt; omega
  rw [fill_congr_moved win0_1 (grid0.coords t) d1 d1' g1 _ hw]

/-! ## The body obligation -/

theorem body_obligation (c : Dev nD) :
    BodyObligationLoose (dats m 0 c) (defs₀ (F := Ideal)) Variants.none () Set.univ := fun t => by
  simp only [bigSep_W0]
  show iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := Ideal)) Variants.none c none) Set.univ (bodyAt0 t) (fun _ =>
        iprop((dats m 0 c).Φ t.succ ∗ (dats m 0 c).owesAt () t.succ
        ∗ owns (c : Thread nD τ) (st0_0 t) fullShare ((dats m 0 c).after 0 t)
        ∗ (∃ d, owns (c : Thread nD τ) (st0_1 t) fullShare ((cfg0.win 1).fill (cfg0.grid.coords t) d ((cfg0.win 1).cut (cfg0.grid.coords t) ((dats m 0 c).after 1 t))))
        ∗ (∃ d, owns (c : Thread nD τ) (st0_2 t) fullShare ((cfg0.win 2).fill (cfg0.grid.coords t) d ((cfg0.win 2).cut (cfg0.grid.coords t) ((dats m 0 c).after 2 t))))
        ∗ (∃ d, owns (c : Thread nD τ) (st0_3 t) fullShare ((cfg0.win 3).fill (cfg0.grid.coords t) d ((cfg0.win 3).cut (cfg0.grid.coords t) ((dats m 0 c).after 3 t))))))
  rw [show (dats m 0 c).Φ t.succ = (dats m 0 c).Φ t.castSucc from rfl,
    show (dats m 0 c).owesAt () t.succ = (dats m 0 c).owesAt () t.castSucc from rfl]
  simp only [before0_0, before0_1, before0_2, before0_3, after0_0, after0_1, after0_2, after0_3]
  iintro ⟨HΦ, Ho, ⟨%d0, H0⟩, ⟨%d1, H1⟩, ⟨%d2, H2⟩, H3⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]
  · iexists d1
    show _ ⊢ owns (c : Thread nD τ) (st0_1 t) fullShare (win0_1.fill (grid0.coords t) d1 (win0_1.cut (grid0.coords t) (wFull m c t)))
    unfold wFull; rw [Pipeline.Window.cut_fill]; try iexact H1
  isplitl [H2]
  · iexists d2
    show _ ⊢ owns (c : Thread nD τ) (st0_2 t) fullShare (win0_2.fill (grid0.coords t) d2 (win0_2.cut (grid0.coords t) (bFull m c t)))
    unfold bFull; rw [Pipeline.Window.cut_fill]; try iexact H2
  · iexists (outBlk (iblk m c 0 t) (win0_1.fill (grid0.coords t) d1 (iblk m c 1 t)) (win0_2.fill (grid0.coords t) d2 (iblk m c 2 t)))
    show _ ⊢ owns (c : Thread nD τ) (st0_3 t) fullShare (win0_3.fill (grid0.coords t) _ (win0_3.cut (grid0.coords t) (outBlk (iblk m c 0 t) (wFull m c t) (bFull m c t))))
    unfold wFull bFull
    rw [← cutOut_eq c t (iblk m c 0 t) d1 _ d2 _ (iblk m c 1 t) (iblk m c 2 t), Pipeline.Window.fill_cut]
    try iexact H3

/-! ## The run and the frame -/

set_option backward.isDefEq.respectTransparency.types false in
/-- Every weakly fair execution of the idealized @main terminates without fault; the four windowed arrays end at what
    the write-backs of the named blocks make of them, every other buffer as the host operations after the region
    leave it. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame of the idealized program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.IdealValue.lean ====
/-
  The result array of the projection after the run.

  Point `t` writes back the part inside the array of the body's result block; entry `q` of that block is
  `Σₖ h[k] · W[2048·t + q, k] + b[2048·t + q]`, so what is written is block `t` of the ONE row
  `logits[j] = Σₖ h[k] · W[j, k] + b[j]`, `j < 50257`.  The 25 blocks, the last cut to its first 1105 entries, cover
  the row (entry `j` lies in block `j / 2048`), so the array ends holding `logits`.
-/
import proofs.«119405_j36335423324794_1_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The entries of the hidden row and of the projection matrix that output entry `j` reads at position `k`. -/
abbrev hRow (j : S1x50257.Idx) (k : Fin 1024) : S1x1024.Idx := fun a => match a with
  | ⟨0, _⟩ => ⟨(j 0).val, (j 0).isLt⟩
  | ⟨1, _⟩ => ⟨k.val, k.isLt⟩
abbrev wRow (j : S1x50257.Idx) (k : Fin 1024) : S50257x1024.Idx := fun a => match a with
  | ⟨0, _⟩ => ⟨(j 1).val, (j 1).isLt⟩
  | ⟨1, _⟩ => ⟨k.val, k.isLt⟩

/-- The projection as one function of whole arrays: `logits[j] = Σₖ h[k] · W[j, k] + b[j]`. -/
def logitsK (h : FVec Ideal S1x1024 .f32) (W : FVec Ideal S50257x1024 .f32) (b : FVec Ideal S1x50257 .f32) :
    FVec Ideal S1x50257 .f32 :=
  fun j => (∑ k : Fin 1024, h (hRow j k) * W (wRow j k)) + b j

/-- The printed index maps and the last block's cut, decided over the grid: the hidden row's block never moves; the
    matrix block moves down its rows and the bias and result blocks along their columns with the point; the result
    block is cut to 1105 columns at the last point only. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_3.xsize (grid0.coords t) (1 : Fin 2) = (if t.val = 24 then 1105 else 2048) :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_3.xsize (grid0.coords t) (1 : Fin 2) = (if t.val = 24 then 1105 else 2048))

/-- On the part of a block a fetch fills, the filled contents are the fetched ones. -/
theorem fill_moved_apply {G : Pipeline.Grid} (w : Pipeline.Window sig G) {α : Type} (i : G.Coords) (d : w.block.Idx → α)
    (g : (w.xblock i).Idx → α) (j : w.block.Idx) (hm : w.moved i j = true) :
    w.fill i d g j = g fun a => ⟨(j a).val, (w.moved_iff i j).mp hm a⟩ := by
  unfold Pipeline.Window.fill; rw [dif_pos hm]

variable (m : (ℓ : Loc nD τ sig) → Buf (Elt Ideal) ℓ) (ρ : Dev nD → PrngReg)

/-! ## The blocks, read off the arrays -/

/-- The hidden row's block is the row. -/
theorem read_h (c : Dev nD) (t : Fin cfg0.N) (y : ((cfg0.win 0).xblock (cfg0.grid.coords t)).Idx) (i : S1x1024.Idx)
    (h0 : (y 0).val = (i 0).val) (h1 : (y 1).val = (i 1).val) : iblk m c 0 t y = V m c main_v66 i := by
  show V m c main_v66 (((cfg0.win 0).blk t).view.emb y) = V m c main_v66 i
  obtain ⟨e00, e01, -⟩ := idx_facts t
  refine congrArg (V m c main_v66) (funext fun a => Fin.ext ?_)
  match a with
  | ⟨0, _⟩ => show win0_0.index t (0 : Fin 2) * 1 + 1 * (y 0).val = (i 0).val; omega
  | ⟨1, _⟩ => show win0_0.index t (1 : Fin 2) * 1024 + 1 * (y 1).val = (i 1).val; omega

/-- Row `q` of the matrix block at point `t` is row `2048·t + q` of the matrix. -/
theorem read_w (c : Dev nD) (t : Fin cfg0.N) (y : ((cfg0.win 1).xblock (cfg0.grid.coords t)).Idx) (i : S50257x1024.Idx)
    (h0 : t.val * 2048 + (y 0).val = (i 0).val) (h1 : (y 1).val = (i 1).val) : iblk m c 1 t y = V m c main_arg12 i := by
  show V m c main_arg12 (((cfg0.win 1).blk t).view.emb y) = V m c main_arg12 i
  obtain ⟨-, -, e10, e11, -⟩ := idx_facts t
  refine congrArg (V m c main_arg12) (funext fun a => Fin.ext ?_)
  match a with
  | ⟨0, _⟩ => show win0_1.index t (0 : Fin 2) * 2048 + 1 * (y 0).val = (i 0).val; rw [e10]; omega
  | ⟨1, _⟩ => show win0_1.index t (1 : Fin 2) * 1024 + 1 * (y 1).val = (i 1).val; omega

/-- Entry `q` of the bias block at point `t` is entry `2048·t + q` of the bias row. -/
theorem read_b (c : Dev nD) (t : Fin cfg0.N) (y : ((cfg0.win 2).xblock (cfg0.grid.coords t)).Idx) (i : S1x50257.Idx)
    (h0 : (y 0).val = (i 0).val) (h1 : t.val * 2048 + (y 1).val = (i 1).val) : iblk m c 2 t y = V m c main_v67 i := by
  show V m c main_v67 (((cfg0.win 2).blk t).view.emb y) = V m c main_v67 i
  obtain ⟨-, -, -, -, e20, e21, -⟩ := idx_facts t
  refine congrArg (V m c main_v67) (funext fun a => Fin.ext ?_)
  match a with
  | ⟨0, _⟩ => show win0_2.index t (0 : Fin 2) * 1 + 1 * (y 0).val = (i 0).val; omega
  | ⟨1, _⟩ => show win0_2.index t (1 : Fin 2) * 2048 + 1 * (y 1).val = (i 1).val; rw [e21]; omega

/-! ## What a point writes back -/

/-- What point `t` writes back is block `t` of `logitsK` of the hidden row, the matrix and the bias row as the region
    finds them. -/
theorem flushed_eq (c : Dev nD) (t : Fin cfg0.N) :
    (dats m 0 c).flushed 3 t
      = ((cfg0.win 3).blk t).view.read (Elt Ideal) (logitsK (V m c main_v66) (V m c main_arg12) (V m c main_v67)) := by
  show (cfg0.win 3).cut (grid0.coords t) ((dats m 0 c).after 3 t) = _
  rw [after0_3]
  funext y
  obtain ⟨e10, e11, e20, e21, e30⟩ := xsizes t
  obtain ⟨-, -, -, -, -, -, i30, i31, -⟩ := idx_facts t
  have hy0 : (y 0).val < win0_3.xsize (grid0.coords t) 0 := (y 0).isLt
  have hy1 : (y 1).val < win0_3.xsize (grid0.coords t) 1 := (y 1).isLt
  show outBlk (iblk m c 0 t) (wFull m c t) (bFull m c t) (win0_3.xinj (grid0.coords t) y)
    = logitsK (V m c main_v66) (V m c main_arg12) (V m c main_v67) (((cfg0.win 3).blk t).view.emb y)
  have J0 : ((((cfg0.win 3).blk t).view.emb y) 0).val = (y 0).val := by
    show win0_3.index t (0 : Fin 2) * 1 + 1 * (y 0).val = (y 0).val; omega
  have J1 : ((((cfg0.win 3).blk t).view.emb y) 1).val = t.val * 2048 + (y 1).val := by
    show win0_3.index t (1 : Fin 2) * 2048 + 1 * (y 1).val = t.val * 2048 + (y 1).val; rw [i31]; omega
  rw [outBlk_apply]
  unfold logitsK
  have hb : win0_2.moved (grid0.coords t) (win0_3.xinj (grid0.coords t) y) = true :=
    (win0_2.moved_iff _ _).mpr fun a => by
      match a with
      | ⟨0, _⟩ => show (y 0).val < win0_2.xsize (grid0.coords t) 0; omega
      | ⟨1, _⟩ => show (y 1).val < win0_2.xsize (grid0.coords t) 1; omega
  have eb : bFull m c t (win0_3.xinj (grid0.coords t) y) = V m c main_v67 (((cfg0.win 3).blk t).view.emb y) := by
    unfold bFull
    rw [fill_moved_apply win0_2 (grid0.coords t) _ (iblk m c 2 t) (win0_3.xinj (grid0.coords t) y) hb]
    exact read_b m c t (fun a => ⟨((win0_3.xinj (grid0.coords t) y) a).val, (win0_2.moved_iff _ _).mp hb a⟩)
      (((cfg0.win 3).blk t).view.emb y) J0.symm J1.symm
  have eh : ∀ k : Fin 1024, iblk m c 0 t (hIdx (win0_3.xinj (grid0.coords t) y) k)
      = V m c main_v66 (hRow (((cfg0.win 3).blk t).view.emb y) k) := fun k =>
    read_h m c t (hIdx (win0_3.xinj (grid0.coords t) y) k) (hRow (((cfg0.win 3).blk t).view.emb y) k) J0.symm rfl
  have ew : ∀ k : Fin 1024, wFull m c t (wIdx (win0_3.xinj (grid0.coords t) y) k)
      = V m c main_arg12 (wRow (((cfg0.win 3).blk t).view.emb y) k) := fun k => by
    have hw : win0_1.moved (grid0.coords t) (wIdx (win0_3.xinj (grid0.coords t) y) k) = true :=
      (win0_1.moved_iff _ _).mpr fun a => by
        match a with
        | ⟨0, _⟩ => show (y 1).val < win0_1.xsize (grid0.coords t) 0; omega
        | ⟨1, _⟩ => show k.val < win0_1.xsize (grid0.coords t) 1; have := k.isLt; omega
    unfold wFull
    rw [fill_moved_apply win0_1 (grid0.coords t) _ (iblk m c 1 t) (wIdx (win0_3.xinj (grid0.coords t) y) k) hw]
    exact read_w m c t (fun a => ⟨((wIdx (win0_3.xinj (grid0.coords t) y) k) a).val, (win0_1.moved_iff _ _).mp hw a⟩)
      (wRow (((cfg0.win 3).blk t).view.emb y) k) J1.symm rfl
  rw [eb]
  exact congrArg (· + V m c main_v67 (((cfg0.win 3).blk t).view.emb y)) (Finset.sum_congr rfl fun k _ => by rw [eh k, ew k])

/-! ## The blocks cover the row -/

/-- An index of the result row is in point `t`'s block iff each coordinate is in the block's range cut at the array's end. -/
theorem mem_blk3 (t : Fin cfg0.N) (i : S1x50257.Idx) :
    i ∈ ((cfg0.win 3).blk t).view.set ↔ ∀ a : Fin 2, win0_3.index t a * S1x2048.size a ≤ (i a).val
      ∧ (i a).val < win0_3.index t a * S1x2048.size a + win0_3.xsize (grid0.coords t) a := by
  show i ∈ ((View.whole main_v68).slice (win0_3.rect t)).set ↔ _
  rw [View.set_slice_whole, Rect.mem_set_unit]
  exact Iff.rfl

/-- Entry `j` of the row lies in block `j / 2048`. -/
theorem cover3 (i : S1x50257.Idx) :
    ∃ t : Fin cfg0.N, (cfg0.win 3).flush t = true ∧ i ∈ ((cfg0.win 3).blk t).view.set := by
  have hi0 : (i 0).val < 1 := (i 0).isLt
  have hi1 : (i 1).val < 50257 := (i 1).isLt
  obtain ⟨t, ht⟩ : ∃ t : Fin cfg0.N, t.val = (i 1).val / 2048 :=
    ⟨⟨(i 1).val / 2048, by rw [show cfg0.N = 25 from N_0]; omega⟩, rfl⟩
  refine ⟨t, flush0_3 t, ?_⟩
  rw [mem_blk3]
  obtain ⟨-, -, -, -, -, -, i30, i31, x31⟩ := idx_facts t
  obtain ⟨-, -, -, -, e30⟩ := xsizes t
  intro a
  match a with
  | ⟨0, _⟩ =>
    show win0_3.index t (0 : Fin 2) * 1 ≤ (i 0).val ∧ (i 0).val < win0_3.index t (0 : Fin 2) * 1 + win0_3.xsize (grid0.coords t) 0
    rw [i30, e30]; omega
  | ⟨1, _⟩ =>
    show win0_3.index t (1 : Fin 2) * 2048 ≤ (i 1).val ∧ (i 1).val < win0_3.index t (1 : Fin 2) * 2048 + win0_3.xsize (grid0.coords t) 1
    rw [i31, x31]
    split <;> omega

/-- The result array after the run is the projection of the hidden row. -/
theorem final3 (c : Dev nD) :
    (dats m 0 c).arrAt 3 cfg0.N = logitsK (V m c main_v66) (V m c main_arg12) (V m c main_v67) :=
  (dats m 0 c).arrAt_eq_of_cover 3 _ (fun t _ => flushed_eq m c t) cover3

end Cert.KernelIdeal.Hand

end
-- ==== Proof.IdealHost.lean ====
/-
  The idealized program's results, read off the run.

  After the region @main takes the row's log-softmax of the projection's result array and puts a unit axis in front of
  the hidden row; the attention weights were computed before the region and nothing touches them afterwards.  So the
  three results are: the log-softmax of the final result array, the hidden row with a unit axis, and the attention
  weights as the region found them.  The bias block's array is the bias vector read as a one-row matrix.
-/
import proofs.«119405_j36335423324794_1_alg».proof.Proof.IdealValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)

/-- Contents carried to a typed reference's buffer and back are unchanged. -/
theorem ofBuf_toBuf_id {sg : RefSig} {T : BufTy} {Val : EltTy → Type} (x : StableHlo.TRef sg T) (v : T.Contents Val) :
    x.ofBuf (x.toBuf v) = v := by
  rcases x with ⟨r, rfl, h2, h3⟩; rfl

/-- The row less its maximum (the maximum taken against `-∞`, as the program spells it). -/
def shiftRowK {F : FTy → Type} [FloatOps F] (x : FVec F S1x50257 .f32) : FVec F S1x50257 .f32 :=
  subf x (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x50257_S1_d1 h_S_))))

/-- The row's log-softmax: the shifted row less the logarithm of the sum of its exponentials. -/
def logSoftmaxRowK {F : FTy → Type} [FloatOps F] (x : FVec F S1x50257 .f32) : FVec F S1x50257 .f32 :=
  subf (shiftRowK x) (broadcastInDim S1x50257 ![0, 1] bcast_S1x1_S1x50257_0_1 (Host.log (broadcastInDim S1x1 ![0] bcast_S1_S1x1_0
    (Host.reduceAdd (Host.exp (shiftRowK x)) (constant (F := F) S_ .f32 0x00000000#32) reducesTo_S1x50257_S1_d1 h_S_))))

/-- The host operations after the region, run from any buffer contents at any float instance, leave in the first
    result's buffer the log-softmax of what the projection's result buffer held. -/
theorem tail69_of {F : FTy → Type} [FloatOps F] (W : Valuation τ sig (Elt F)) :
    StableHlo.after (List.flatten [hostOps1, hostOps1_1]) W (Proc.devRef .tc main_v69)
      = logSoftmaxRowK (F := F) (W (Proc.devRef .tc main_v68)) := by
  simp only [hostOps1, hostOps1_1, List.flatten_cons, List.flatten_nil, List.append_nil, List.cons_append, List.nil_append]
  after_results_simp
  simp only [ofBuf_toBuf_id]
  rfl

variable (m : (ℓ : Loc nD τ sig) → Buf (Elt Ideal) ℓ) (ρ : Dev nD → PrngReg)

/-- The first result: the log-softmax of the projection's final result array. -/
theorem tail_v69 (c : Dev nD) :
    Pipeline.afterTail₀ cfgs (dats m) 0 (V0 m) [hostOps1, hostOps1_1] c main_v69
      = logSoftmaxRowK (F := Ideal) ((dats m 0 c).arrAt 3 cfg0.N) := by
  unfold Pipeline.afterTail₀
  have e : Pipeline.withArrays (cfgs 0).spec c (V0 m c) (fun w => (dats m 0 c).arrAt w (cfgs 0).N) (Proc.devRef .tc main_v68)
      = (dats m 0 c).arrAt 3 cfg0.N := Pipeline.withArrays_arr spec0 launch0.win.arr_inj c _ _ 3
  exact (tail69_of (F := Ideal) (Pipeline.withArrays (cfgs 0).spec c (V0 m c) fun w => (dats m 0 c).arrAt w (cfgs 0).N)).trans
    (congrArg (logSoftmaxRowK (F := Ideal)) e)

/-- The second result: the hidden row, as the region found it, with a unit axis in front. -/
theorem tail_v70 (c : Dev nD) :
    Pipeline.afterTail₀ cfgs (dats m) 0 (V0 m) [hostOps1, hostOps1_1] c main_v70
      = broadcastInDim S1x1x1024 ![1, 2] bcast_S1x1024_S1x1x1024_1_2 (V m c main_v66) := by
  unfold Pipeline.afterTail₀
  show StableHlo.after (List.flatten [hostOps1, hostOps1_1]) _ (Proc.devRef .tc main_v70) = _
  simp only [hostOps1, hostOps1_1, List.flatten_cons, List.flatten_nil, List.append_nil, List.cons_append, List.nil_append]
  after_results
  have e : Pipeline.withArrays (cfgs 0).spec c (V0 m c) (fun w => (dats m 0 c).arrAt w (cfgs 0).N) (Proc.devRef .tc main_v66)
      = V m c main_v66 :=
    (Pipeline.withArrays_arr spec0 launch0.win.arr_inj c _ _ 0).trans (((dats m 0 c).arrAt_in 0 rfl _).trans (A_eq m c 0))
  rw [e]

/-- The third result: the attention weights as the region found them. -/
theorem tail_v23 (c : Dev nD) :
    Pipeline.afterTail₀ cfgs (dats m) 0 (V0 m) [hostOps1, hostOps1_1] c main_v23 = V m c main_v23 := by
  unfold Pipeline.afterTail₀
  rw [StableHlo.after_of_forall_not_mem (b := Proc.devRef .tc main_v23) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v23 (by exact (by decide : ∀ w, Pipeline.arrRef spec0 w ≠ main_v23))]

/-- The bias row the region stages is the bias vector read as a one-row matrix. -/
theorem V_v67 (c : Dev nD) :
    V m c main_v67 = shapeCast S1x50257 (m ((c.tc : Thread nD τ).loc main_arg13)) shapeCasts_S50257_S1x50257 := by
  show StableHlo.after (List.flatten [hostOps0, hostOps0_1, hostOps0_2]) (fun b => m (c, b)) (Proc.devRef .tc main_v67) = _
  simp only [hostOps0, hostOps0_1, hostOps0_2, List.flatten_cons, List.flatten_nil, List.append_nil, List.cons_append, List.nil_append]
  after_results
  rfl

/-- A vector read as a one-row matrix: entry `(0, q)` is entry `q`. -/
theorem row_of_vector_apply {α : Type} (x : S50257.Idx → α) (j : S1x50257.Idx) :
    shapeCast S1x50257 x shapeCasts_S50257_S1x50257 j = x (fun a => match a with | ⟨0, _⟩ => ⟨(j 1).val, (j 1).isLt⟩) := by
  refine shapeCast_apply x _ j _ ?_
  rw [Shape.rowMajor_val_one, Shape.rowMajor_val_two]
  have h0 : (j 0).val < 1 := (j 0).isLt
  show (j 1).val = (j 0).val * 50257 + (j 1).val
  omega

end Cert.KernelIdeal.Hand

end
-- ==== Proof.Bridge.lean ====
/-
  The two idealized programs compute the same three results.

  Before the projection the two programs apply the same host operations to the same arguments, so the hidden row
  and the attention weights the kernel's region finds are the reference's.  The kernel's result array holds, entry by
  entry, `Σₖ h[k] · W[j, k] + b[j]`; the reference's one matrix product against the transposed projection matrix,
  plus the bias vector read along the row, is the same sum at every entry.  Both programs then take the same row's
  log-softmax.
-/
import proofs.«119405_j36335423324794_1_alg».proof.Proof.IdealHost
import proofs.«119405_j36335423324794_1_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem Idealize.ShloMosaic.StableHlo

/-- Two rows of 1024 entries side by side, as one function of the two rows. -/
def cat2 {F : FTy → Type} [FloatOps F] (a b : (⟨S1x1024, .f32⟩ : BufTy).Contents (Elt F)) : (⟨S1x2048, .f32⟩ : BufTy).Contents (Elt F) :=
  concatenate S1x2048 1 [⟨S1x1024, a⟩, ⟨S1x1024, b⟩] concatenates_S1x1024_S1x1024_S1x2048_d1

/-- The kernel program's and the reference's spelling of that operation are this function. -/
theorem catK {F : FTy → Type} [FloatOps F] :
    ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F))
      = cat2 := rfl
theorem catR {F : FTy → Type} [FloatOps F] :
    ((fun a b => concatenate Cert.ReferenceIdeal.S1x2048 1 [⟨Cert.ReferenceIdeal.S1x1024, a⟩, ⟨Cert.ReferenceIdeal.S1x1024, b⟩] Cert.ReferenceIdeal.Gen.concatenates_S1x1024_S1x1024_S1x2048_d1) : (⟨Cert.ReferenceIdeal.S1x1024, .f32⟩ : BufTy).Contents (Elt F) → (⟨Cert.ReferenceIdeal.S1x1024, .f32⟩ : BufTy).Contents (Elt F) → (⟨Cert.ReferenceIdeal.S1x2048, .f32⟩ : BufTy).Contents (Elt F))
      = cat2 := rfl

set_option maxHeartbeats 4000000 in
/-- From buffer contents that agree on the arguments, at any float instance, the kernel program's host operations
    before its region and the reference's first seventy-nine operations leave the same hidden row: they are the same
    operations. -/
theorem hidden_x {F : FTy → Type} [FloatOps F] (WK : Valuation τ sig (Elt F)) (WR : Valuation Cert.ReferenceIdeal.τ Cert.ReferenceIdeal.sig (Elt F))
    (h0 : WR (Proc.devRef .tc Cert.ReferenceIdeal.main_arg0) = WK (Proc.devRef .tc main_arg0)) (h1 : WR (Proc.devRef .tc Cert.ReferenceIdeal.main_arg1) = WK (Proc.devRef .tc main_arg1)) (h2 : WR (Proc.devRef .tc Cert.ReferenceIdeal.main_arg2) = WK (Proc.devRef .tc main_arg2)) (h3 : WR (Proc.devRef .tc Cert.ReferenceIdeal.main_arg3) = WK (Proc.devRef .tc main_arg3)) (h4 : WR (Proc.devRef .tc Cert.ReferenceIdeal.main_arg4) = WK (Proc.devRef .tc main_arg4)) (h5 : WR (Proc.devRef .tc Cert.ReferenceIdeal.main_arg5) = WK (Proc.devRef .tc main_arg5)) (h6 : WR (Proc.devRef .tc Cert.ReferenceIdeal.main_arg6) = WK (Proc.devRef .tc main_arg6)) (h7 : WR (Proc.devRef .tc Cert.ReferenceIdeal.main_arg7) = WK (Proc.devRef .tc main_arg7)) (h8 : WR (Proc.devRef .tc Cert.ReferenceIdeal.main_arg8) = WK (Proc.devRef .tc main_arg8)) (h9 : WR (Proc.devRef .tc Cert.ReferenceIdeal.main_arg9) = WK (Proc.devRef .tc main_arg9)) (h10 : WR (Proc.devRef .tc Cert.ReferenceIdeal.main_arg10) = WK (Proc.devRef .tc main_arg10)) (h11 : WR (Proc.devRef .tc Cert.ReferenceIdeal.main_arg11) = WK (Proc.devRef .tc main_arg11)) :
    after (List.flatten [hostOps0, hostOps0_1, hostOps0_2]) WK (Proc.devRef .tc main_v66)
      = after (Cert.ReferenceIdeal.PValue.opsPre (F := F)) WR (Proc.devRef .tc Cert.ReferenceIdeal.main_v66) := by
  simp only [hostOps0, hostOps0_1, hostOps0_2, Cert.ReferenceIdeal.PValue.opsPre, List.flatten_cons, List.flatten_nil, List.append_nil, List.cons_append, List.nil_append]
  simp only [catK, catR]
  after_results_simp
  simp only [ofBuf_toBuf_id, h0, h1, h2, h3, h4, h5, h6, h7, h8, h9, h10, h11]
  rfl

set_option maxHeartbeats 4000000 in
/-- Likewise the attention weights. -/
theorem attn_x {F : FTy → Type} [FloatOps F] (WK : Valuation τ sig (Elt F)) (WR : Valuation Cert.ReferenceIdeal.τ Cert.ReferenceIdeal.sig (Elt F))
    (h0 : WR (Proc.devRef .tc Cert.ReferenceIdeal.main_arg0) = WK (Proc.devRef .tc main_arg0)) (h1 : WR (Proc.devRef .tc Cert.ReferenceIdeal.main_arg1) = WK (Proc.devRef .tc main_arg1)) (h3 : WR (Proc.devRef .tc Cert.ReferenceIdeal.main_arg3) = WK (Proc.devRef .tc main_arg3)) (h4 : WR (Proc.devRef .tc Cert.ReferenceIdeal.main_arg4) = WK (Proc.devRef .tc main_arg4)) (h5 : WR (Proc.devRef .tc Cert.ReferenceIdeal.main_arg5) = WK (Proc.devRef .tc main_arg5)) :
    after (List.flatten [hostOps0, hostOps0_1, hostOps0_2]) WK (Proc.devRef .tc main_v23)
      = after (Cert.ReferenceIdeal.PValue.opsPre (F := F)) WR (Proc.devRef .tc Cert.ReferenceIdeal.main_v23) := by
  simp only [hostOps0, hostOps0_1, hostOps0_2, Cert.ReferenceIdeal.PValue.opsPre, List.flatten_cons, List.flatten_nil, List.append_nil, List.cons_append, List.nil_append]
  simp only [catK, catR]
  after_results_simp
  simp only [ofBuf_toBuf_id, h0, h1, h3, h4, h5]
  rfl

/-- The kernel's and the reference's log-softmax chains are one function. -/
theorem logSoftmaxRowK_eq {F : FTy → Type} [FloatOps F] (x : FVec F S1x50257 .f32) :
    logSoftmaxRowK x = Cert.ReferenceIdeal.Hand.logSoftmaxRow (F := F) x := rfl

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The hidden row the region finds is the one the reference computes. -/
theorem hidden_eq (c : Dev nD) (a0 : m' ((c.tc : Thread Cert.ReferenceIdeal.nD Cert.ReferenceIdeal.τ).loc Cert.ReferenceIdeal.main_arg0) = m ((c.tc : Thread nD τ).loc main_arg0)) (a1 : m' ((c.tc : Thread Cert.ReferenceIdeal.nD Cert.ReferenceIdeal.τ).loc Cert.ReferenceIdeal.main_arg1) = m ((c.tc : Thread nD τ).loc main_arg1)) (a2 : m' ((c.tc : Thread Cert.ReferenceIdeal.nD Cert.ReferenceIdeal.τ).loc Cert.ReferenceIdeal.main_arg2) = m ((c.tc : Thread nD τ).loc main_arg2)) (a3 : m' ((c.tc : Thread Cert.ReferenceIdeal.nD Cert.ReferenceIdeal.τ).loc Cert.ReferenceIdeal.main_arg3) = m ((c.tc : Thread nD τ).loc main_arg3)) (a4 : m' ((c.tc : Thread Cert.ReferenceIdeal.nD Cert.ReferenceIdeal.τ).loc Cert.ReferenceIdeal.main_arg4) = m ((c.tc : Thread nD τ).loc main_arg4)) (a5 : m' ((c.tc : Thread Cert.ReferenceIdeal.nD Cert.ReferenceIdeal.τ).loc Cert.ReferenceIdeal.main_arg5) = m ((c.tc : Thread nD τ).loc main_arg5)) (a6 : m' ((c.tc : Thread Cert.ReferenceIdeal.nD Cert.ReferenceIdeal.τ).loc Cert.ReferenceIdeal.main_arg6) = m ((c.tc : Thread nD τ).loc main_arg6)) (a7 : m' ((c.tc : Thread Cert.ReferenceIdeal.nD Cert.ReferenceIdeal.τ).loc Cert.ReferenceIdeal.main_arg7) = m ((c.tc : Thread nD τ).loc main_arg7)) (a8 : m' ((c.tc : Thread Cert.ReferenceIdeal.nD Cert.ReferenceIdeal.τ).loc Cert.ReferenceIdeal.main_arg8) = m ((c.tc : Thread nD τ).loc main_arg8)) (a9 : m' ((c.tc : Thread Cert.ReferenceIdeal.nD Cert.ReferenceIdeal.τ).loc Cert.ReferenceIdeal.main_arg9) = m ((c.tc : Thread nD τ).loc main_arg9)) (a10 : m' ((c.tc : Thread Cert.ReferenceIdeal.nD Cert.ReferenceIdeal.τ).loc Cert.ReferenceIdeal.main_arg10) = m ((c.tc : Thread nD τ).loc main_arg10)) (a11 : m' ((c.tc : Thread Cert.ReferenceIdeal.nD Cert.ReferenceIdeal.τ).loc Cert.ReferenceIdeal.main_arg11) = m ((c.tc : Thread nD τ).loc main_arg11)) :
    V m c main_v66 = Cert.ReferenceIdeal.Hand.hid m' c :=
  hidden_x (F := Ideal) (fun b => m (c, b)) (launchContents m' c) a0 a1 a2 a3 a4 a5 a6 a7 a8 a9 a10 a11

/-- The attention weights the region finds are the ones the reference computes. -/
theorem attn_eq (c : Dev nD) (a0 : m' ((c.tc : Thread Cert.ReferenceIdeal.nD Cert.ReferenceIdeal.τ).loc Cert.ReferenceIdeal.main_arg0) = m ((c.tc : Thread nD τ).loc main_arg0)) (a1 : m' ((c.tc : Thread Cert.ReferenceIdeal.nD Cert.ReferenceIdeal.τ).loc Cert.ReferenceIdeal.main_arg1) = m ((c.tc : Thread nD τ).loc main_arg1)) (a3 : m' ((c.tc : Thread Cert.ReferenceIdeal.nD Cert.ReferenceIdeal.τ).loc Cert.ReferenceIdeal.main_arg3) = m ((c.tc : Thread nD τ).loc main_arg3)) (a4 : m' ((c.tc : Thread Cert.ReferenceIdeal.nD Cert.ReferenceIdeal.τ).loc Cert.ReferenceIdeal.main_arg4) = m ((c.tc : Thread nD τ).loc main_arg4)) (a5 : m' ((c.tc : Thread Cert.ReferenceIdeal.nD Cert.ReferenceIdeal.τ).loc Cert.ReferenceIdeal.main_arg5) = m ((c.tc : Thread nD τ).loc main_arg5)) :
    V m c main_v23 = Cert.ReferenceIdeal.Hand.att m' c :=
  attn_x (F := Ideal) (fun b => m (c, b)) (launchContents m' c) a0 a1 a3 a4 a5

/-- The kernel's projection row is the reference's logits, entry by entry. -/
theorem logits_eq (c : Dev nD) (a0 : m' ((c.tc : Thread Cert.ReferenceIdeal.nD Cert.ReferenceIdeal.τ).loc Cert.ReferenceIdeal.main_arg0) = m ((c.tc : Thread nD τ).loc main_arg0)) (a1 : m' ((c.tc : Thread Cert.ReferenceIdeal.nD Cert.ReferenceIdeal.τ).loc Cert.ReferenceIdeal.main_arg1) = m ((c.tc : Thread nD τ).loc main_arg1)) (a2 : m' ((c.tc : Thread Cert.ReferenceIdeal.nD Cert.ReferenceIdeal.τ).loc Cert.ReferenceIdeal.main_arg2) = m ((c.tc : Thread nD τ).loc main_arg2)) (a3 : m' ((c.tc : Thread Cert.ReferenceIdeal.nD Cert.ReferenceIdeal.τ).loc Cert.ReferenceIdeal.main_arg3) = m ((c.tc : Thread nD τ).loc main_arg3)) (a4 : m' ((c.tc : Thread Cert.ReferenceIdeal.nD Cert.ReferenceIdeal.τ).loc Cert.ReferenceIdeal.main_arg4) = m ((c.tc : Thread nD τ).loc main_arg4)) (a5 : m' ((c.tc : Thread Cert.ReferenceIdeal.nD Cert.ReferenceIdeal.τ).loc Cert.ReferenceIdeal.main_arg5) = m ((c.tc : Thread nD τ).loc main_arg5)) (a6 : m' ((c.tc : Thread Cert.ReferenceIdeal.nD Cert.ReferenceIdeal.τ).loc Cert.ReferenceIdeal.main_arg6) = m ((c.tc : Thread nD τ).loc main_arg6)) (a7 : m' ((c.tc : Thread Cert.ReferenceIdeal.nD Cert.ReferenceIdeal.τ).loc Cert.ReferenceIdeal.main_arg7) = m ((c.tc : Thread nD τ).loc main_arg7)) (a8 : m' ((c.tc : Thread Cert.ReferenceIdeal.nD Cert.ReferenceIdeal.τ).loc Cert.ReferenceIdeal.main_arg8) = m ((c.tc : Thread nD τ).loc main_arg8)) (a9 : m' ((c.tc : Thread Cert.ReferenceIdeal.nD Cert.ReferenceIdeal.τ).loc Cert.ReferenceIdeal.main_arg9) = m ((c.tc : Thread nD τ).loc main_arg9)) (a10 : m' ((c.tc : Thread Cert.ReferenceIdeal.nD Cert.ReferenceIdeal.τ).loc Cert.ReferenceIdeal.main_arg10) = m ((c.tc : Thread nD τ).loc main_arg10)) (a11 : m' ((c.tc : Thread Cert.ReferenceIdeal.nD Cert.ReferenceIdeal.τ).loc Cert.ReferenceIdeal.main_arg11) = m ((c.tc : Thread nD τ).loc main_arg11)) (a12 : m' ((c.tc : Thread Cert.ReferenceIdeal.nD Cert.ReferenceIdeal.τ).loc Cert.ReferenceIdeal.main_arg12) = m ((c.tc : Thread nD τ).loc main_arg12)) (a13 : m' ((c.tc : Thread Cert.ReferenceIdeal.nD Cert.ReferenceIdeal.τ).loc Cert.ReferenceIdeal.main_arg13) = m ((c.tc : Thread nD τ).loc main_arg13)) :
    logitsK (V m c main_v66) (V m c main_arg12) (V m c main_v67)
      = Cert.ReferenceIdeal.Hand.refLogits (F := Ideal) (Cert.ReferenceIdeal.Hand.hid m' c) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
  funext j
  rw [Cert.ReferenceIdeal.Hand.refLogits_apply]
  unfold logitsK
  rw [V_v67, V_main_arg12, row_of_vector_apply, ← hidden_eq m m' c a0 a1 a2 a3 a4 a5 a6 a7 a8 a9 a10 a11, a12, a13]
  refine congrArg₂ (· + ·) (Finset.sum_congr rfl fun k _ => ?_) ?_
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

/-- First result. -/
theorem out0_eq (c : Dev nD) (a0 : m' ((c.tc : Thread Cert.ReferenceIdeal.nD Cert.ReferenceIdeal.τ).loc Cert.ReferenceIdeal.main_arg0) = m ((c.tc : Thread nD τ).loc main_arg0)) (a1 : m' ((c.tc : Thread Cert.ReferenceIdeal.nD Cert.ReferenceIdeal.τ).loc Cert.ReferenceIdeal.main_arg1) = m ((c.tc : Thread nD τ).loc main_arg1)) (a2 : m' ((c.tc : Thread Cert.ReferenceIdeal.nD Cert.ReferenceIdeal.τ).loc Cert.ReferenceIdeal.main_arg2) = m ((c.tc : Thread nD τ).loc main_arg2)) (a3 : m' ((c.tc : Thread Cert.ReferenceIdeal.nD Cert.ReferenceIdeal.τ).loc Cert.ReferenceIdeal.main_arg3) = m ((c.tc : Thread nD τ).loc main_arg3)) (a4 : m' ((c.tc : Thread Cert.ReferenceIdeal.nD Cert.ReferenceIdeal.τ).loc Cert.ReferenceIdeal.main_arg4) = m ((c.tc : Thread nD τ).loc main_arg4)) (a5 : m' ((c.tc : Thread Cert.ReferenceIdeal.nD Cert.ReferenceIdeal.τ).loc Cert.ReferenceIdeal.main_arg5) = m ((c.tc : Thread nD τ).loc main_arg5)) (a6 : m' ((c.tc : Thread Cert.ReferenceIdeal.nD Cert.ReferenceIdeal.τ).loc Cert.ReferenceIdeal.main_arg6) = m ((c.tc : Thread nD τ).loc main_arg6)) (a7 : m' ((c.tc : Thread Cert.ReferenceIdeal.nD Cert.ReferenceIdeal.τ).loc Cert.ReferenceIdeal.main_arg7) = m ((c.tc : Thread nD τ).loc main_arg7)) (a8 : m' ((c.tc : Thread Cert.ReferenceIdeal.nD Cert.ReferenceIdeal.τ).loc Cert.ReferenceIdeal.main_arg8) = m ((c.tc : Thread nD τ).loc main_arg8)) (a9 : m' ((c.tc : Thread Cert.ReferenceIdeal.nD Cert.ReferenceIdeal.τ).loc Cert.ReferenceIdeal.main_arg9) = m ((c.tc : Thread nD τ).loc main_arg9)) (a10 : m' ((c.tc : Thread Cert.ReferenceIdeal.nD Cert.ReferenceIdeal.τ).loc Cert.ReferenceIdeal.main_arg10) = m ((c.tc : Thread nD τ).loc main_arg10)) (a11 : m' ((c.tc : Thread Cert.ReferenceIdeal.nD Cert.ReferenceIdeal.τ).loc Cert.ReferenceIdeal.main_arg11) = m ((c.tc : Thread nD τ).loc main_arg11)) (a12 : m' ((c.tc : Thread Cert.ReferenceIdeal.nD Cert.ReferenceIdeal.τ).loc Cert.ReferenceIdeal.main_arg12) = m ((c.tc : Thread nD τ).loc main_arg12)) (a13 : m' ((c.tc : Thread Cert.ReferenceIdeal.nD Cert.ReferenceIdeal.τ).loc Cert.ReferenceIdeal.main_arg13) = m ((c.tc : Thread nD τ).loc main_arg13)) :
    logSoftmaxRowK (logitsK (V m c main_v66) (V m c main_arg12) (V m c main_v67))
      = Cert.ReferenceIdeal.Hand.logSoftmaxRow (F := Ideal) (Cert.ReferenceIdeal.Hand.refLogits (Cert.ReferenceIdeal.Hand.hid m' c) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) := by
  rw [← logits_eq m m' c a0 a1 a2 a3 a4 a5 a6 a7 a8 a9 a10 a11 a12 a13]
  exact logSoftmaxRowK_eq _

/-- Second result. -/
theorem out1_eq (c : Dev nD) (a0 : m' ((c.tc : Thread Cert.ReferenceIdeal.nD Cert.ReferenceIdeal.τ).loc Cert.ReferenceIdeal.main_arg0) = m ((c.tc : Thread nD τ).loc main_arg0)) (a1 : m' ((c.tc : Thread Cert.ReferenceIdeal.nD Cert.ReferenceIdeal.τ).loc Cert.ReferenceIdeal.main_arg1) = m ((c.tc : Thread nD τ).loc main_arg1)) (a2 : m' ((c.tc : Thread Cert.ReferenceIdeal.nD Cert.ReferenceIdeal.τ).loc Cert.ReferenceIdeal.main_arg2) = m ((c.tc : Thread nD τ).loc main_arg2)) (a3 : m' ((c.tc : Thread Cert.ReferenceIdeal.nD Cert.ReferenceIdeal.τ).loc Cert.ReferenceIdeal.main_arg3) = m ((c.tc : Thread nD τ).loc main_arg3)) (a4 : m' ((c.tc : Thread Cert.ReferenceIdeal.nD Cert.ReferenceIdeal.τ).loc Cert.ReferenceIdeal.main_arg4) = m ((c.tc : Thread nD τ).loc main_arg4)) (a5 : m' ((c.tc : Thread Cert.ReferenceIdeal.nD Cert.ReferenceIdeal.τ).loc Cert.ReferenceIdeal.main_arg5) = m ((c.tc : Thread nD τ).loc main_arg5)) (a6 : m' ((c.tc : Thread Cert.ReferenceIdeal.nD Cert.ReferenceIdeal.τ).loc Cert.ReferenceIdeal.main_arg6) = m ((c.tc : Thread nD τ).loc main_arg6)) (a7 : m' ((c.tc : Thread Cert.ReferenceIdeal.nD Cert.ReferenceIdeal.τ).loc Cert.ReferenceIdeal.main_arg7) = m ((c.tc : Thread nD τ).loc main_arg7)) (a8 : m' ((c.tc : Thread Cert.ReferenceIdeal.nD Cert.ReferenceIdeal.τ).loc Cert.ReferenceIdeal.main_arg8) = m ((c.tc : Thread nD τ).loc main_arg8)) (a9 : m' ((c.tc : Thread Cert.ReferenceIdeal.nD Cert.ReferenceIdeal.τ).loc Cert.ReferenceIdeal.main_arg9) = m ((c.tc : Thread nD τ).loc main_arg9)) (a10 : m' ((c.tc : Thread Cert.ReferenceIdeal.nD Cert.ReferenceIdeal.τ).loc Cert.ReferenceIdeal.main_arg10) = m ((c.tc : Thread nD τ).loc main_arg10)) (a11 : m' ((c.tc : Thread Cert.ReferenceIdeal.nD Cert.ReferenceIdeal.τ).loc Cert.ReferenceIdeal.main_arg11) = m ((c.tc : Thread nD τ).loc main_arg11)) :
    broadcastInDim S1x1x1024 ![1, 2] bcast_S1x1024_S1x1x1024_1_2 (V m c main_v66)
      = broadcastInDim Cert.ReferenceIdeal.S1x1x1024 ![1, 2] Cert.ReferenceIdeal.Gen.bcast_S1x1024_S1x1x1024_1_2 (Cert.ReferenceIdeal.Hand.hid m' c) := by
  rw [← hidden_eq m m' c a0 a1 a2 a3 a4 a5 a6 a7 a8 a9 a10 a11]

open Idealize.ShloMosaic.Pipeline (Dat) in
/-- The idealized kernel's run, read at its three results and its arguments: the log-softmax of the projection row,
    the hidden row with a unit axis, the attention weights as the region found them; the arguments unchanged. -/
theorem run_values : θ_run defs (onTc (τ := τ) (main (F := Ideal))) ⟨m, fun _ => 0, ρ⟩ (fun r => ∀ c : Dev nD,
      r.2.mem ((c.tc : Thread nD τ).loc main_v69)
        = logSoftmaxRowK (F := Ideal) (logitsK (V m c main_v66) (V m c main_arg12) (V m c main_v67))
      ∧ r.2.mem ((c.tc : Thread nD τ).loc main_v70) = broadcastInDim S1x1x1024 ![1, 2] bcast_S1x1024_S1x1x1024_1_2 (V m c main_v66)
      ∧ r.2.mem ((c.tc : Thread nD τ).loc main_v23) = V m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      (((h c).2 main_v69 (Pipeline.mem_restRefs_of main_v69 (by decide) (by decide))).trans
        ((tail_v69 m c).trans (congrArg (logSoftmaxRowK (F := Ideal)) (final3 m c)))),
      (((h c).2 main_v70 (Pipeline.mem_restRefs_of main_v70 (by decide) (by decide))).trans (tail_v70 m c)),
      (((h c).2 main_v23 (Pipeline.mem_restRefs_of main_v23 (by decide) (by decide))).trans (tail_v23 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 1).trans (((dats m 0 c).arrAt_in 1 rfl _).trans ((A_eq m c 1).trans (V_main_arg12 m c))),
      (((h c).2 main_arg13 (Pipeline.mem_restRefs_of main_arg13 (by decide) (by decide))).trans (W_main_arg13 m (dats m) c))⟩)
    (run_main m ρ)

end Cert.KernelIdeal.Hand

end
-- ==== Proof.lean ====
/-
  A single decoder step of an attention GRU whose last stage — the projection of the new hidden row onto the
  vocabulary, `logits = h · Wᵀ + b` over 50257 entries — is a Pallas kernel tiled in 25 blocks of 2048 entries, against
  the same step with the projection written as one matrix product.

  * The word-level program and the idealized program run to the end, fault nowhere and leave their arguments
    unchanged.  The last block reaches past the arrays' end; at word level nothing is said of what it computes from the
    rows past the end, and the frame is read at the argument arrays only.
  * The reference is a host program: its run is computed operation by operation.
  * Over the extended reals the kernel's entry `j` is `Σₖ h[k] · W[j, k] + b[j]`: it reads row `j` of the matrix only, so
    the entries written back do not depend on the rows past the end, and the 25 written blocks make up the whole row.
    The reference's matrix product is the same sum at every entry.  Everything before the projection, and the
    log-softmax after it, are the same operations in both programs.  The change of float format before the matrix
    unit is the identity over the extended reals, so nothing was rewritten and `preserves` asks nothing.
-/
import proofs.«119405_j36335423324794_1_alg».proof.Defs
import proofs.«119405_j36335423324794_1_alg».proof.Proof.Gen.Kernel
import proofs.«119405_j36335423324794_1_alg».proof.Proof.Gen.KernelIdeal
import proofs.«119405_j36335423324794_1_alg».proof.Proof.Gen.ReferenceIdeal
import proofs.«119405_j36335423324794_1_alg».proof.Proof.RefRun
import proofs.«119405_j36335423324794_1_alg».proof.Proof.RefSide
import proofs.«119405_j36335423324794_1_alg».proof.Proof.Gen.Pre_finite_inputs
import proofs.«119405_j36335423324794_1_alg».proof.Proof.BitsFrame
import proofs.«119405_j36335423324794_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Hand.run_vals (F := Ideal) m ρ)

set_option maxHeartbeats 2000000 in
/-- From memories that agree on the arguments both idealized programs end at the reference's three results. -/
theorem algebraic : Cert.algebraic_KernelIdeal_ReferenceIdeal := by
  intro m ρ m' ρ' _ hagree
  refine ⟨_, _, _, ?_, Cert.ReferenceIdeal.Hand.run_vals (F := Ideal) m' ρ'⟩
  refine (θ_run Cert.KernelIdeal.defs _ _).mono (fun r h c => ?_) (Cert.KernelIdeal.Hand.run_values m ρ)
  obtain ⟨a0, a1, a2, a3, a4, a5, a6, a7, a8, a9, a10, a11, a12, a13⟩ := hagree c
  obtain ⟨h0, h1, h2, hargs⟩ := h c
  exact ⟨h0.trans (Cert.KernelIdeal.Hand.out0_eq m m' c a0 a1 a2 a3 a4 a5 a6 a7 a8 a9 a10 a11 a12 a13),
    h1.trans (Cert.KernelIdeal.Hand.out1_eq m m' c a0 a1 a2 a3 a4 a5 a6 a7 a8 a9 a10 a11),
    h2.trans (Cert.KernelIdeal.Hand.attn_eq m m' c a0 a1 a3 a4 a5), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
